-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S65536x64 : Shape := ⟨2, ![65536, 64]⟩
abbrev S64x64 : Shape := ⟨2, ![64, 64]⟩
abbrev S64 : Shape := ⟨1, ![64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S1024x64 .f32) (main_arg1 : FVec F S65536x64 .f32) (main_arg2 : FVec F S64x64 .f32) (main_arg3 : FVec F S64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1024x64 : Shape := ⟨2, ![1024, 64]⟩
abbrev S65536x64 : Shape := ⟨2, ![65536, 64]⟩
abbrev S64x64 : Shape := ⟨2, ![64, 64]⟩
abbrev S64 : Shape := ⟨1, ![64]⟩
abbrev S1x64 : Shape := ⟨2, ![1, 64]⟩
abbrev S2048x64 : Shape := ⟨2, ![2048, 64]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S1024x64, .f32⟩
  | .hbm, ⟨1, _⟩ => ⟨S65536x64, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S1024x64, .f32⟩
  | .local _ .vmem, ⟨0, _⟩ => ⟨S1024x64, .f32⟩
  | .local _ .vmem, ⟨1, _⟩ => ⟨S2048x64, .f32⟩
  | .local _ .vmem, ⟨2, _⟩ => ⟨S2048x64, .f32⟩
  | .local _ .vmem, ⟨3, _⟩ => ⟨S64x64, .f32⟩
  | .local _ .vmem, ⟨4, _⟩ => ⟨S1x64, .f32⟩
  | .local _ .vmem, ⟨5, _⟩ => ⟨S1024x64, .f32⟩
  | .local _ .vmem, ⟨6, _⟩ => ⟨S1024x64, .f32⟩
  | .local _ .vmem, ⟨7, _⟩ => ⟨S1024x1, .f32⟩
  | .local _ .vmem, ⟨8, _⟩ => ⟨S1024x1, .f32⟩
  | .local _ .vmem, ⟨9, _⟩ => ⟨S1024x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v37 : BitVec 1 := Scalar.cmpi .eq arg0 c31_i32
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x64_S2048x64_0_0 : ∀ a, (![0, 0] : Fin 2 → Nat) a + S2048x64.size a ≤ S2048x64.size a
  h_S2048x64 : 0 < S2048x64.numel
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  dot_S1024x64_S64x64_S1024x64_1_1_0_0_n_n_wf : DotDims.WF S1024x64 S64x64 S1024x64 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S65536x64.size a
  hwx0_1 : ∀ i : grid0.Coords, EltTy.bits .f32 = 32 ∨ (Rect.block (s := S65536x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)

variable [Facts₀]

def dot_S1024x64_S64x64_S1024x64_1_1_0_0_n_n : DotDims S1024x64 S64x64 S1024x64 where
  lhsContracting := [1]
  rhsContracting := [1]
  lhsNonContracting := [0]
  rhsNonContracting := [0]
  lhsBatch := []
  rhsBatch := []
  wf := dot_S1024x64_S64x64_S1024x64_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x64 : Shape := ⟨2, ![1024, 64]⟩
abbrev S65536x64 : Shape := ⟨2, ![65536, 64]⟩
abbrev S64x64 : Shape := ⟨2, ![64, 64]⟩
abbrev S64 : Shape := ⟨1, ![64]⟩
abbrev S1x64 : Shape := ⟨2, ![1, 64]⟩
abbrev S64x65536 : Shape := ⟨2, ![64, 65536]⟩
abbrev S1024x65536 : Shape := ⟨2, ![1024, 65536]⟩
abbrev S_ : Shape := ⟨0, ![]⟩
abbrev S1024 : Shape := ⟨1, ![1024]⟩
abbrev S1024x1 : Shape := ⟨2, ![1024, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S65536x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1024x64, .f32⟩
  | .hbm, ⟨6, _⟩ => ⟨S1x64, .f32⟩
  | .hbm, ⟨7, _⟩ => ⟨S1024x64, .f32⟩
  | .hbm, ⟨8, _⟩ => ⟨S1024x64, .f32⟩
  | .hbm, ⟨9, _⟩ => ⟨S64x65536, .f32⟩
  | .hbm, ⟨10, _⟩ => ⟨S1024x65536, .f32⟩
  | .hbm, ⟨11, _⟩ => ⟨S_, .f32⟩
  | .hbm, ⟨12, _⟩ => ⟨S1024x65536, .f32⟩
  | .hbm, ⟨13, _⟩ => ⟨S1024x65536, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024x1, .f32⟩
  | .hbm, ⟨20, _⟩ => ⟨S1024x65536, .f32⟩
  | .hbm, ⟨21, _⟩ => ⟨S1024x65536, .f32⟩
  | .hbm, ⟨22, _⟩ => ⟨S1024x65536, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S1024x65536, .f32⟩
  | .hbm, ⟨27, _⟩ => ⟨S1024x65536, .f32⟩
  | .hbm, ⟨28, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  transposes_S65536x64_S64x65536_1_0 : S65536x64.Transposes [1, 0] S64x65536
  bcast_S_S1024x65536 : S_.BroadcastsInDim S1024x65536 (![] : Fin 0 → Fin S1024x65536.rank)
  reducesTo_S1024x65536_S1024_d1 : S1024x65536.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x65536_0_1 : S1024x1.BroadcastsInDim S1024x65536 (![0, 1] : Fin 2 → Fin S1024x65536.rank)
  dot_S1024x64_S64x64_S1024x64_1_0_0_1_n_n_wf : DotDims.WF S1024x64 S64x64 S1024x64 [1] [0] [0] [1] [] []
  dot_S1024x64_S64x65536_S1024x65536_1_0_0_1_n_n_wf : DotDims.WF S1024x64 S64x65536 S1024x65536 [1] [0] [0] [1] [] []
  dot_S1024x65536_S65536x64_S1024x64_1_0_0_1_n_n_wf : DotDims.WF S1024x65536 S65536x64 S1024x64 [1] [0] [0] [1] [] []

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x65536_S1024x65536_1_0_0_1_n_n : DotDims S1024x64 S64x65536 S1024x65536 where
  lhsContracting := [1]
  rhsContracting := [0]
  lhsNonContracting := [0]
  rhsNonContracting := [1]
  lhsBatch := []
  rhsBatch := []
  wf := dot_S1024x64_S64x65536_S1024x65536_1_0_0_1_n_n_wf
def dot_S1024x65536_S65536x64_S1024x64_1_0_0_1_n_n : DotDims S1024x65536 S65536x64 S1024x64 where
  lhsContracting := [1]
  rhsContracting := [0]
  lhsNonContracting := [0]
  rhsNonContracting := [1]
  lhsBatch := []
  rhsBatch := []
  wf := dot_S1024x65536_S65536x64_S1024x64_1_0_0_1_n_n_wf

class Facts : Prop extends Facts₀ where

variable [Facts]
-- ==== Proof.Pieces.lean ====
/-
  What each control case of the kernel body leaves in the four scratch buffers it carries from grid point to grid
  point (the projected query, the running maximum, the running denominator, the running weighted sum) and, at the
  last point, in the output block — as the body's own arithmetic (the generated skeleton's payloads) applied to the
  point's input blocks and, after the first point, to what the point before left.

  Every store of the body covers its whole buffer, so a buffer ends holding its LAST store's value; where that value
  was computed from a load of an earlier store of the same run (the reset values at the first point, the fresh
  projection), the load reads that earlier store's value. First point (A): the projection is computed and the three
  running values start from -inf, 0, 0. Middle points (B): the projection is kept, the three running values are
  updated from the previous point's. Last point (C): as B, and the output block is weighted sum over denominator.
-/
import proofs.«153952_g34059090657292_cont_8to1_b_1253_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- Zero offsets, as the printed rectangles spell them. -/
theorem hz : (![0, 0] : Fin 2 → Nat) = fun _ => 0 := funext fun a => by fin_cases a <;> rfl

/-! ## The first point -/

/-- First point, projected query: the projection of the query block by the weight block, plus the bias. -/
theorem first_proj (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond0_0 i) (hc1 : ¬cond0_1 i)
    (x0 : Vec F S1024x64 .f32) (x1 : Vec F S2048x64 .f32) (x2 : Vec F S64x64 .f32) (x3 : Vec F S1x64 .f32) :
    sout0_A_0 c i arg1 harg1 arg2 harg2 arg3 harg3 arg4 harg4 arg5 harg5 arg6 harg6 arg7 harg7 arg8 harg8 arg9 harg9 hc0 hc1 x0 x1 x2 x3 = k0_pay3 x0 x2 x3 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x64) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

/-- First point, running maximum: the block's row maxima against the reset value. -/
theorem first_max (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond0_0 i) (hc1 : ¬cond0_1 i)
    (x0 : Vec F S1024x64 .f32) (x1 : Vec F S2048x64 .f32) (x2 : Vec F S64x64 .f32) (x3 : Vec F S1x64 .f32) :
    sout0_A_1 c i arg1 harg1 arg2 harg2 arg3 harg3 arg4 harg4 arg5 harg5 arg6 harg6 arg7 harg7 arg8 harg8 arg9 harg9 hc0 hc1 x0 x1 x2 x3 = k0_pay1 (k0_pay8 (k0_pay3 x0 x2 x3) x1 k0_pay4) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

/-- First point, running denominator: the update of the reset denominator. -/
theorem first_den (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond0_0 i) (hc1 : ¬cond0_1 i)
    (x0 : Vec F S1024x64 .f32) (x1 : Vec F S2048x64 .f32) (x2 : Vec F S64x64 .f32) (x3 : Vec F S1x64 .f32) :
    sout0_A_2 c i arg1 harg1 arg2 harg2 arg3 harg3 arg4 harg4 arg5 harg5 arg6 harg6 arg7 harg7 arg8 harg8 arg9 harg9 hc0 hc1 x0 x1 x2 x3 = k0_pay11 (k0_pay3 x0 x2 x3) x1 k0_pay4 k0_pay5 := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

/-- First point, running weighted sum: the update of the reset sum. -/
theorem first_acc (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond0_0 i) (hc1 : ¬cond0_1 i)
    (x0 : Vec F S1024x64 .f32) (x1 : Vec F S2048x64 .f32) (x2 : Vec F S64x64 .f32) (x3 : Vec F S1x64 .f32) :
    sout0_A_3 c i arg1 harg1 arg2 harg2 arg3 harg3 arg4 harg4 arg5 harg5 arg6 harg6 arg7 harg7 arg8 harg8 arg9 harg9 hc0 hc1 x0 x1 x2 x3 = k0_pay12 (k0_pay3 x0 x2 x3) x1 k0_pay4 k0_pay6 x1 := by
  unfold sout0_A_3
  rw [View.read_writes_eq_canon _ _ _ (scover0_A_3 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x64) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

/-! ## A middle point -/

/-- Middle point, projected query: kept. -/
theorem mid_proj (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : ¬cond0_1 i)
    (x0 : Vec F S1024x64 .f32) (x1 : Vec F S2048x64 .f32) (x2 : Vec F S64x64 .f32) (x3 : Vec F S1x64 .f32) (xs0 : Vec F S1024x64 .f32) (xs1 : Vec F S1024x1 .f32) (xs2 : Vec F S1024x1 .f32) (xs3 : Vec F S1024x64 .f32) :
    sout0_B_0 c i arg1 harg1 arg2 harg2 arg3 harg3 arg4 harg4 arg5 harg5 arg6 harg6 arg7 harg7 arg8 harg8 arg9 harg9 hc0 hc1 x0 x1 x2 x3 xs0 xs1 xs2 xs3 = xs0 := rfl

/-- Middle point, running maximum: the previous maximum against the block's row maxima. -/
theorem mid_max (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : ¬cond0_1 i)
    (x0 : Vec F S1024x64 .f32) (x1 : Vec F S2048x64 .f32) (x2 : Vec F S64x64 .f32) (x3 : Vec F S1x64 .f32) (xs0 : Vec F S1024x64 .f32) (xs1 : Vec F S1024x1 .f32) (xs2 : Vec F S1024x1 .f32) (xs3 : Vec F S1024x64 .f32) :
    sout0_B_1 c i arg1 harg1 arg2 harg2 arg3 harg3 arg4 harg4 arg5 harg5 arg6 harg6 arg7 harg7 arg8 harg8 arg9 harg9 hc0 hc1 x0 x1 x2 x3 xs0 xs1 xs2 xs3 = k0_pay1 (k0_pay8 xs0 x1 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 xs0 xs1 xs2 xs3)]
  unfold kernelRun0_B
  dsimp only
  sl_unfold_words
  rw [View.canon_cons_unit_zero (S := S1024x1) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

/-- Middle point, running denominator: the previous one rescaled, plus the block's. -/
theorem mid_den (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : ¬cond0_1 i)
    (x0 : Vec F S1024x64 .f32) (x1 : Vec F S2048x64 .f32) (x2 : Vec F S64x64 .f32) (x3 : Vec F S1x64 .f32) (xs0 : Vec F S1024x64 .f32) (xs1 : Vec F S1024x1 .f32) (xs2 : Vec F S1024x1 .f32) (xs3 : Vec F S1024x64 .f32) :
    sout0_B_2 c i arg1 harg1 arg2 harg2 arg3 harg3 arg4 harg4 arg5 harg5 arg6 harg6 arg7 harg7 arg8 harg8 arg9 harg9 hc0 hc1 x0 x1 x2 x3 xs0 xs1 xs2 xs3 = k0_pay11 xs0 x1 xs1 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 hc0 hc1 x0 x1 x2 x3 xs0 xs1 xs2 xs3)]
  unfold kernelRun0_B
  dsimp only
  sl_unfold_words
  rw [View.canon_cons_unit_zero (S := S1024x1) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

/-- Middle point, running weighted sum: the previous one rescaled, plus the block's. -/
theorem mid_acc (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : ¬cond0_1 i)
    (x0 : Vec F S1024x64 .f32) (x1 : Vec F S2048x64 .f32) (x2 : Vec F S64x64 .f32) (x3 : Vec F S1x64 .f32) (xs0 : Vec F S1024x64 .f32) (xs1 : Vec F S1024x1 .f32) (xs2 : Vec F S1024x1 .f32) (xs3 : Vec F S1024x64 .f32) :
    sout0_B_3 c i arg1 harg1 arg2 harg2 arg3 harg3 arg4 harg4 arg5 harg5 arg6 harg6 arg7 harg7 arg8 harg8 arg9 harg9 hc0 hc1 x0 x1 x2 x3 xs0 xs1 xs2 xs3 = k0_pay12 xs0 x1 xs1 xs3 x1 := by
  unfold sout0_B_3
  rw [View.read_writes_eq_canon _ _ _ (scover0_B_3 c i arg1 harg1 arg2 harg2 arg3 harg3 arg4 harg4 arg5 harg5 arg6 harg6 arg7 harg7 arg8 harg8 arg9 harg9 hc0 hc1 x0 x1 x2 x3 xs0 xs1 xs2 xs3)]
  unfold kernelRun0_B
  dsimp only
  sl_unfold_words
  rw [View.canon_cons_unit_zero (S := S1024x64) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

/-! ## The last point -/

/-- Last point, projected query: kept. -/
theorem last_proj (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i)
    (x0 : Vec F S1024x64 .f32) (x1 : Vec F S2048x64 .f32) (x2 : Vec F S64x64 .f32) (x3 : Vec F S1x64 .f32) (xs0 : Vec F S1024x64 .f32) (xs1 : Vec F S1024x1 .f32) (xs2 : Vec F S1024x1 .f32) (xs3 : Vec F S1024x64 .f32) :
    sout0_C_0 c i arg1 harg1 arg2 harg2 arg3 harg3 arg4 harg4 arg5 harg5 arg6 harg6 arg7 harg7 arg8 harg8 arg9 harg9 hc0 hc1 x0 x1 x2 x3 xs0 xs1 xs2 xs3 = xs0 := rfl

/-- Last point, running maximum. -/
theorem last_max (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i)
    (x0 : Vec F S1024x64 .f32) (x1 : Vec F S2048x64 .f32) (x2 : Vec F S64x64 .f32) (x3 : Vec F S1x64 .f32) (xs0 : Vec F S1024x64 .f32) (xs1 : Vec F S1024x1 .f32) (xs2 : Vec F S1024x1 .f32) (xs3 : Vec F S1024x64 .f32) :
    sout0_C_1 c i arg1 harg1 arg2 harg2 arg3 harg3 arg4 harg4 arg5 harg5 arg6 harg6 arg7 harg7 arg8 harg8 arg9 harg9 hc0 hc1 x0 x1 x2 x3 xs0 xs1 xs2 xs3 = k0_pay1 (k0_pay8 xs0 x1 xs1) := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 xs0 xs1 xs2 xs3)]
  unfold kernelRun0_C
  dsimp only
  sl_unfold_words
  rw [View.canon_cons_unit_zero (S := S1024x1) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

/-- Last point, running denominator. -/
theorem last_den (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i)
    (x0 : Vec F S1024x64 .f32) (x1 : Vec F S2048x64 .f32) (x2 : Vec F S64x64 .f32) (x3 : Vec F S1x64 .f32) (xs0 : Vec F S1024x64 .f32) (xs1 : Vec F S1024x1 .f32) (xs2 : Vec F S1024x1 .f32) (xs3 : Vec F S1024x64 .f32) :
    sout0_C_2 c i arg1 harg1 arg2 harg2 arg3 harg3 arg4 harg4 arg5 harg5 arg6 harg6 arg7 harg7 arg8 harg8 arg9 harg9 hc0 hc1 x0 x1 x2 x3 xs0 xs1 xs2 xs3 = k0_pay11 xs0 x1 xs1 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 hc0 hc1 x0 x1 x2 x3 xs0 xs1 xs2 xs3)]
  unfold kernelRun0_C
  dsimp only
  sl_unfold_words
  rw [View.canon_cons_unit_zero (S := S1024x1) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

/-- Last point, running weighted sum. -/
theorem last_acc (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i)
    (x0 : Vec F S1024x64 .f32) (x1 : Vec F S2048x64 .f32) (x2 : Vec F S64x64 .f32) (x3 : Vec F S1x64 .f32) (xs0 : Vec F S1024x64 .f32) (xs1 : Vec F S1024x1 .f32) (xs2 : Vec F S1024x1 .f32) (xs3 : Vec F S1024x64 .f32) :
    sout0_C_3 c i arg1 harg1 arg2 harg2 arg3 harg3 arg4 harg4 arg5 harg5 arg6 harg6 arg7 harg7 arg8 harg8 arg9 harg9 hc0 hc1 x0 x1 x2 x3 xs0 xs1 xs2 xs3 = k0_pay12 xs0 x1 xs1 xs3 x1 := by
  unfold sout0_C_3
  rw [View.read_writes_eq_canon _ _ _ (scover0_C_3 c i arg1 harg1 arg2 harg2 arg3 harg3 arg4 harg4 arg5 harg5 arg6 harg6 arg7 harg7 arg8 harg8 arg9 harg9 hc0 hc1 x0 x1 x2 x3 xs0 xs1 xs2 xs3)]
  unfold kernelRun0_C
  dsimp only
  sl_unfold_words
  rw [View.canon_cons_unit_zero (S := S1024x64) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

/-- Last point, the output block: the final weighted sum over the final denominator. -/
theorem last_out (c : Dev nD) (i : grid0.Coords) (arg1 : Memref sig .tc .vmem S1024x64 .f32) (harg1 : arg1.IsWhole) (arg2 : Memref sig .tc .vmem S2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i)
    (x0 : Vec F S1024x64 .f32) (x1 : Vec F S2048x64 .f32) (x2 : Vec F S64x64 .f32) (x3 : Vec F S1x64 .f32) (xs0 : Vec F S1024x64 .f32) (xs1 : Vec F S1024x1 .f32) (xs2 : Vec F S1024x1 .f32) (xs3 : Vec F S1024x64 .f32) :
    out0_C_4 c i arg1 harg1 arg2 harg2 arg3 harg3 arg4 harg4 arg5 harg5 arg6 harg6 arg7 harg7 arg8 harg8 arg9 harg9 hc0 hc1 x0 x1 x2 x3 xs0 xs1 xs2 xs3 = k0_pay2 (k0_pay12 xs0 x1 xs1 xs3 x1) (k0_pay11 xs0 x1 xs1 xs2) := by
  unfold out0_C_4
  rw [View.read_writes_eq_canon _ _ _ (cover0_C_4 c i arg1 harg1 arg2 harg2 arg3 harg3 arg4 harg4 arg5 harg5 arg6 harg6 arg7 harg7 arg8 harg8 arg9 harg9 hc0 hc1 x0 x1 x2 x3 xs0 xs1 xs2 xs3)]
  unfold kernelRun0_C
  dsimp only
  sl_unfold_words
  rw [View.canon_cons_unit_zero (S := S1024x64) hz]
  simp only [View.readCov_unit_zero (S := S1024x64) _ hz, View.readCov_unit_zero (S := S1024x1) _ hz, View.readAt_eq_ld,
    harg1.read_unread, harg2.read_unread, harg3.read_unread, harg4.read_unread, harg5.read_unread, harg6.read_unread,
    harg7.read_unread, harg8.read_unread, harg9.read_unread, View.ld_unit_zero (S := S1024x64) hz,
    View.ld_unit_zero (S := S2048x64) hz, View.ld_unit_zero (S := S64x64) hz, View.ld_unit_zero (S := S1x64) hz,
    View.ld_unit_zero (S := S1024x1) hz]

end Cert.KernelIdeal.Pieces

end
-- ==== Proof.Spec.lean ====
/-
  The mathematics of the certificate, over the reals, with no program in sight.

  Attention read-out of a working memory: a query block `q` (1024 rows of 64), a memory `bf` (65536 rows of 64), a
  projection `W` (64 by 64) and a bias. The projected query is `proj b e = (∑ k, q b k * W e k) + bias e`, the score of
  memory row `j` for query row `b` is `score b j = (∑ e, proj b e * bf j e) / 8`, and the result is the softmax-weighted
  mean of the memory rows,
      `out b d = (∑ j, exp (score b j) * bf j d) / (∑ j, exp (score b j))`.
  A softmax does not depend on the number subtracted from its scores before exponentiating; that one fact
  (Softmax.lean) serves both programs — the reference subtracts the row maximum, the kernel a running maximum.

  The arrays of the programs hold extended reals. Under the precondition every entry is a real number, so an array
  is the lift (`up2`, `upc`, `up1`) of its real part (`re2`, `re1`); the target `G` is the lift of `out`.
-/
import Mathlib.Analysis.SpecialFunctions.Exp
import Mathlib.Algebra.BigOperators.Fin
import Idealize.ShloMosaic.PureOps.Ideal
import Idealize.ShloMosaic.Lib.ValueIdx

noncomputable section

namespace Cert.Spec

open Finset Idealize.ShloMosaic Idealize.ShloMosaic.ValueIdx

/-! ## The read-out over the reals -/

section Formulas

variable (q : Fin 1024 → Fin 64 → ℝ) (bf : Fin 65536 → Fin 64 → ℝ) (W : Fin 64 → Fin 64 → ℝ) (bias : Fin 64 → ℝ)

/-- The projected query, `query · Wᵀ + bias`. -/
def proj (b : Fin 1024) (e : Fin 64) : ℝ := (∑ k : Fin 64, q b k * W e k) + bias e

/-- The scaled score of a memory row `r` (64 numbers) for projected-query row `b`: their inner product, over 8. -/
def rowScore (Q : Fin 1024 → Fin 64 → ℝ) (r : Fin 64 → ℝ) (b : Fin 1024) : ℝ := (∑ e : Fin 64, Q b e * r e) * (1 / 8)

/-- The scaled score of memory row `j` for query row `b`. -/
def score (b : Fin 1024) (j : Fin 65536) : ℝ := rowScore (proj q W bias) (bf j) b

/-- The attention read-out: the softmax over the memory rows' scores, applied to the memory. -/
def out (b : Fin 1024) (d : Fin 64) : ℝ :=
  (∑ j : Fin 65536, Real.exp (score q bf W bias b j) * bf j d) / (∑ j : Fin 65536, Real.exp (score q bf W bias b j))

/-- Row `i` of the `u`-th block of 2048 memory rows (row `2048 u + i`; past the memory's end, the zero row). -/
def blockRow (u : ℕ) (i : Fin 2048) : Fin 64 → ℝ :=
  if h : 2048 * u + i.val < 65536 then bf ⟨2048 * u + i.val, h⟩ else fun _ => 0

end Formulas

/-! ## Reals as arrays of extended reals, and back -/

/-- A real matrix as an array of extended reals. -/
def up2 {n0 n1 : ℕ} (f : Fin n0 → Fin n1 → ℝ) : (⟨2, ![n0, n1]⟩ : Shape).Idx → EReal := fun i => ((f (i 0) (i 1) : ℝ) : EReal)

/-- A real column as an `[n, 1]` array of extended reals. -/
def upc {n : ℕ} (f : Fin n → ℝ) : (⟨2, ![n, 1]⟩ : Shape).Idx → EReal := fun i => ((f (i 0) : ℝ) : EReal)

/-- A real row as a `[1, n]` array of extended reals. -/
def upr {n : ℕ} (f : Fin n → ℝ) : (⟨2, ![1, n]⟩ : Shape).Idx → EReal := fun i => ((f (i 1) : ℝ) : EReal)

/-- A real vector as an array of extended reals. -/
def up1 {n : ℕ} (f : Fin n → ℝ) : (⟨1, ![n]⟩ : Shape).Idx → EReal := fun i => ((f (i 0) : ℝ) : EReal)

/-- The real parts of a matrix of extended reals. -/
def re2 {n0 n1 : ℕ} (x : (⟨2, ![n0, n1]⟩ : Shape).Idx → EReal) : Fin n0 → Fin n1 → ℝ := fun a b => (x (ix2 a b)).toReal

/-- The real parts of a vector of extended reals. -/
def re1 {n : ℕ} (x : (⟨1, ![n]⟩ : Shape).Idx → EReal) : Fin n → ℝ := fun a => (x (ix1 a)).toReal

/-- Every entry is a real number. -/
def AllReal {s : Shape} (x : s.Idx → EReal) : Prop := ∀ i, ∃ r : ℝ, x i = (r : EReal)

theorem up2_re2 {n0 n1 : ℕ} (x : (⟨2, ![n0, n1]⟩ : Shape).Idx → EReal) (h : AllReal x) : up2 (re2 x) = x := by
  funext i
  obtain ⟨a, b, rfl⟩ : ∃ (a : Fin n0) (b : Fin n1), i = ix2 a b := ⟨i 0, i 1, eq_ix2 i⟩
  obtain ⟨r, hr⟩ := h (ix2 a b)
  show (((x (ix2 a b)).toReal : ℝ) : EReal) = x (ix2 a b)
  rw [hr, EReal.toReal_coe]

theorem up1_re1 {n : ℕ} (x : (⟨1, ![n]⟩ : Shape).Idx → EReal) (h : AllReal x) : up1 (re1 x) = x := by
  funext i
  obtain ⟨a, rfl⟩ : ∃ a : Fin n, i = ix1 a := ⟨i 0, eq_ix1 i⟩
  obtain ⟨r, hr⟩ := h (ix1 a)
  show (((x (ix1 a)).toReal : ℝ) : EReal) = x (ix1 a)
  rw [hr, EReal.toReal_coe]

/-- THE TARGET: the read-out of the arguments' real parts, as an array of extended reals. -/
def G (x0 : (⟨2, ![1024, 64]⟩ : Shape).Idx → EReal) (x1 : (⟨2, ![65536, 64]⟩ : Shape).Idx → EReal)
    (x2 : (⟨2, ![64, 64]⟩ : Shape).Idx → EReal) (x3 : (⟨1, ![64]⟩ : Shape).Idx → EReal) :
    (⟨2, ![1024, 64]⟩ : Shape).Idx → EReal :=
  up2 (out (re2 x0) (re2 x1) (re2 x2) (re1 x3))

end Cert.Spec

end
-- ==== Proof.StepReal.lean ====
/-
  The kernel body's arithmetic on real data. Each store's value (a payload of the generated skeleton) is evaluated
  at the extended reals on arrays all of whose entries are real numbers, and comes out as the lift of a real formula:
  the projected query; the first block's running maximum, denominator and weighted sum (from the reset values
  -inf, 0, 0: `exp (-inf - m) = 0` wipes the reset); a later block's update of the three; and the final quotient.
  The new maximum is only claimed to be SOME real number `M'`: the softmax does not care which (Softmax.lean).
-/
import proofs.«153952_g34059090657292_cont_8to1_b_1253_2_alg».proof.Proof.Gen.KernelIdeal.Skeleton
import proofs.«153952_g34059090657292_cont_8to1_b_1253_2_alg».proof.Proof.Spec
import Idealize.ShloMosaic.PureOps.Ideal.Laws
import Idealize.ShloMosaic.Lib.ValueIdx
import Idealize.ShloMosaic.Lib.Pipeline.Value

noncomputable section

namespace Cert.KernelIdeal.StepReal

open Finset Idealize.ShloMosaic Idealize.ShloMosaic.ValueIdx Cert.KernelIdeal Cert.KernelIdeal.Gen Cert.Spec

/-! ## Words, and sums of lifts -/

/-- The word of one eighth. -/
theorem ofBits_eighth : Ideal.ofBits .f32 0x3E000000#32 = ((1 / 8 : ℝ) : EReal) := by
  simp [Ideal.ofBits, Ideal.ieee]
  rw [← EReal.coe_mul]
  norm_num

/-- The word of minus infinity. -/
theorem ofBits_neg_inf : Ideal.ofBits .f32 0xFF800000#32 = (⊥ : EReal) := by
  simp [Ideal.ofBits, Ideal.ieee]

/-- The lift of a finite sum of reals is the sum of the lifts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The projection's product: both operands contracted on their second axis -/

theorem lhs_pq_0 (i : S1024x64.Idx) (q : dot_S1024x64_S64x64_S1024x64_1_1_0_0_n_n.contr.Idx) :
    (dot_S1024x64_S64x64_S1024x64_1_1_0_0_n_n.lhsIdx i q 0).val = (i 0).val := by
  unfold DotDims.lhsIdx
  rw [dif_neg (show ¬(0 : Fin S1024x64.rank) ∈ dot_S1024x64_S64x64_S1024x64_1_1_0_0_n_n.lhsBatch by decide), dif_pos (show (0 : Fin S1024x64.rank) ∈ dot_S1024x64_S64x64_S1024x64_1_1_0_0_n_n.lhsNonContracting by decide)]
  rfl
theorem lhs_pq_1 (i : S1024x64.Idx) (q : dot_S1024x64_S64x64_S1024x64_1_1_0_0_n_n.contr.Idx) :
    (dot_S1024x64_S64x64_S1024x64_1_1_0_0_n_n.lhsIdx i q 1).val = (q ⟨0, by decide⟩).val :=
  dot_S1024x64_S64x64_S1024x64_1_1_0_0_n_n.lhsIdx_val_of_single rfl i q
theorem rhs_pq_0 (i : S1024x64.Idx) (q : dot_S1024x64_S64x64_S1024x64_1_1_0_0_n_n.contr.Idx) :
    (dot_S1024x64_S64x64_S1024x64_1_1_0_0_n_n.rhsIdx i q 0).val = (i 1).val := by
  unfold DotDims.rhsIdx
  rw [dif_neg (show ¬(0 : Fin S64x64.rank) ∈ dot_S1024x64_S64x64_S1024x64_1_1_0_0_n_n.rhsBatch by decide), dif_pos (show (0 : Fin S64x64.rank) ∈ dot_S1024x64_S64x64_S1024x64_1_1_0_0_n_n.rhsNonContracting by decide)]
  rfl
theorem rhs_pq_1 (i : S1024x64.Idx) (q : dot_S1024x64_S64x64_S1024x64_1_1_0_0_n_n.contr.Idx) :
    (dot_S1024x64_S64x64_S1024x64_1_1_0_0_n_n.rhsIdx i q 1).val = (q ⟨0, by decide⟩).val :=
  dot_S1024x64_S64x64_S1024x64_1_1_0_0_n_n.rhsIdx_val_of_single rfl i q

/-- The projection's product at `(b, e)`: the sum over `k` of the query at `(b, k)` times the weights at `(e, k)`. -/
theorem mm_pq_apply (x : FVec Ideal S1024x64 .f32) (w : FVec Ideal S64x64 .f32) (b : Fin 1024) (e : Fin 64) :
    matmul dot_S1024x64_S64x64_S1024x64_1_1_0_0_n_n none x w (constant (F := Ideal) S1024x64 .f32 0x00000000#32) (ix2 b e)
      = ∑ k : Fin 64, x (ix2 b k) * w (ix2 e k) := by
  simp only [matmul]
  rw [Ideal.matmul_constant_zero_apply, ← Equiv.sum_comp (contrEquiv1 dot_S1024x64_S64x64_S1024x64_1_1_0_0_n_n 64 rfl rfl).symm]
  refine Finset.sum_congr rfl fun k _ => ?_
  have hk := contrEquiv1_symm_val dot_S1024x64_S64x64_S1024x64_1_1_0_0_n_n 64 rfl rfl k
  have el : dot_S1024x64_S64x64_S1024x64_1_1_0_0_n_n.lhsIdx (ix2 b e) ((contrEquiv1 dot_S1024x64_S64x64_S1024x64_1_1_0_0_n_n 64 rfl rfl).symm k) = ix2 b k := funext fun a => Fin.ext (by
    match a with
    | ⟨0, _⟩ => exact lhs_pq_0 _ _
    | ⟨1, _⟩ => exact (lhs_pq_1 _ _).trans hk)
  have er : dot_S1024x64_S64x64_S1024x64_1_1_0_0_n_n.rhsIdx (ix2 b e) ((contrEquiv1 dot_S1024x64_S64x64_S1024x64_1_1_0_0_n_n 64 rfl rfl).symm k) = ix2 e k := funext fun a => Fin.ext (by
    match a with
    | ⟨0, _⟩ => exact rhs_pq_0 _ _
    | ⟨1, _⟩ => exact (rhs_pq_1 _ _).trans hk)
  rw [el, er]

/-! ## The projection -/

/-- One row broadcast over 1024 rows reads the row. -/
theorem bcast_row_apply (v : FVec Ideal S1x64 .f32) (b : Fin 1024) (e : Fin 64) :
    broadcastTo S1024x64 v broadcasts_S1x64_S1024x64 (ix2 b e) = v (ix2 (0 : Fin 1) e) :=
  broadcastTo_apply v broadcasts_S1x64_S1024x64 (ix2 b e) (ix2 (0 : Fin 1) e) fun a => by
    match a with
    | ⟨0, _⟩ => rfl
    | ⟨1, _⟩ => rfl

/-- The projection at `(b, e)`. -/
theorem pay3_apply (x : FVec Ideal S1024x64 .f32) (w : FVec Ideal S64x64 .f32) (c : FVec Ideal S1x64 .f32) (b : Fin 1024) (e : Fin 64) :
    k0_pay3 (F := Ideal) x w c (ix2 b e) = (∑ k : Fin 64, x (ix2 b k) * w (ix2 e k)) + c (ix2 (0 : Fin 1) e) := by
  unfold k0_pay3
  rw [shapeCast_self, shapeCast_self, addf_apply, mm_pq_apply, bcast_row_apply]

/-- The projection: `query · Wᵀ + bias` on real data is the lift of `proj`. -/
theorem proj_real (q : Fin 1024 → Fin 64 → ℝ) (W : Fin 64 → Fin 64 → ℝ) (bias : Fin 64 → ℝ) :
    k0_pay3 (F := Ideal) (up2 q) (up2 W) (upr bias) = up2 (proj q W bias) := by
  funext j
  obtain ⟨b, e, rfl⟩ : ∃ (b : Fin 1024) (e : Fin 64), j = ix2 b e := ⟨j 0, j 1, eq_ix2 j⟩
  rw [pay3_apply]
  show (∑ k : Fin 64, ((q b k : ℝ) : EReal) * ((W e k : ℝ) : EReal)) + ((bias e : ℝ) : EReal) = ((proj q W bias b e : ℝ) : EReal)
  unfold proj
  rw [EReal.coe_add, coe_sum]
  simp only [EReal.coe_mul]

/-! ## Layout operations of the block step, read at coordinates -/

/-- A vector of 1024 entries cast to a column reads its entry. -/
theorem cast_col_apply (v : FVec Ideal S1024 .f32) (b : Fin 1024) (z : Fin 1) :
    shapeCast S1024x1 v shapeCasts_S1024_S1024x1 (ix2 b z) = v (ix1 b) :=
  shapeCast_apply v shapeCasts_S1024_S1024x1 (ix2 b z) (ix1 b) (by
    have hz : z.val = 0 := by omega
    rw [Shape.rowMajor_val_one, Shape.rowMajor_val_two]
    show b.val = b.val * 1 + z.val
    rw [hz, Nat.mul_one, Nat.add_zero])

/-- A column broadcast over 2048 lanes reads the column. -/
theorem bcast_col2048_apply (v : FVec Ideal S1024x1 .f32) (b : Fin 1024) (i : Fin 2048) :
    broadcastTo S1024x2048 v broadcasts_S1024x1_S1024x2048 (ix2 b i) = v (ix2 b (0 : Fin 1)) :=
  broadcastTo_apply v broadcasts_S1024x1_S1024x2048 (ix2 b i) (ix2 b (0 : Fin 1)) fun a => by
    match a with
    | ⟨0, _⟩ => rfl
    | ⟨1, _⟩ => rfl

/-- A column broadcast over 64 lanes reads the column. -/
theorem bcast_col64_apply (v : FVec Ideal S1024x1 .f32) (b : Fin 1024) (d : Fin 64) :
    broadcastTo S1024x64 v broadcasts_S1024x1_S1024x64 (ix2 b d) = v (ix2 b (0 : Fin 1)) :=
  broadcastTo_apply v broadcasts_S1024x1_S1024x64 (ix2 b d) (ix2 b (0 : Fin 1)) fun a => by
    match a with
    | ⟨0, _⟩ => rfl
    | ⟨1, _⟩ => rfl

/-- The lane sum of a `[1024, 2048]` array at row `b`. -/
theorem lane_sum_apply (src : FVec Ideal S1024x2048 .f32) (b : Fin 1024) :
    multiReduction .add [1] S1024 src 0x00000000#32 reduces_S1024x2048_S1024 (.inl rfl) rfl (ix1 b)
      = ∑ i : Fin 2048, src (ix2 b i) := by
  refine (Ideal.multiReduction_add_single src 0x00000000#32 reduces_S1024x2048_S1024 (.inl rfl) rfl (ix1 b)).trans ?_
  refine Finset.sum_congr rfl fun i _ => congrArg src (funext fun a => Fin.ext ?_)
  match a with
  | ⟨0, _⟩ => rfl
  | ⟨1, _⟩ => rfl

/-- The lane maximum of a `[1024, 2048]` array at row `b`: the fold of `max` from minus infinity. -/
theorem lane_max_apply (src : FVec Ideal S1024x2048 .f32) (b : Fin 1024) :
    multiReduction .maximumf [1] S1024 src 0xFF800000#32 reduces_S1024x2048_S1024 (.inl rfl) rfl (ix1 b)
      = (Finset.univ : Finset (Fin 2048)).fold max (⊥ : EReal) (fun i => src (ix2 b i)) := by
  refine (Ideal.multiReduction_maximumf_single src 0xFF800000#32 reduces_S1024x2048_S1024 (.inl rfl) rfl (ix1 b)).trans ?_
  have h1 : (src ∘ reduces_S1024x2048_S1024.lift (ix1 b)) = fun i : Fin 2048 => src (ix2 b i) :=
    funext fun i => congrArg src (funext fun a => Fin.ext (by
      match a with
      | ⟨0, _⟩ => rfl
      | ⟨1, _⟩ => rfl))
  show (Finset.univ : Finset (Fin 2048)).fold max (Ideal.ofBits .f32 0xFF800000#32) (src ∘ reduces_S1024x2048_S1024.lift (ix1 b)) = _
  rw [h1, ofBits_neg_inf]
  rfl

/-! ## The score product: the projected query against a block, both contracted on their second axis -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The score product at `(b, i)`: the sum over `k` of the projected query at `(b, k)` times the block at `(i, k)`. -/
theorem mm_qk_apply (x : FVec Ideal S1024x64 .f32) (y : FVec Ideal S2048x64 .f32) (b : Fin 1024) (i : Fin 2048) :
    matmul dot_S1024x64_S2048x64_S1024x2048_1_1_0_0_n_n none x y (constant (F := Ideal) S1024x2048 .f32 0x00000000#32) (ix2 b i)
      = ∑ k : Fin 64, x (ix2 b k) * y (ix2 i k) := by
  simp only [matmul]
  rw [Ideal.matmul_constant_zero_apply, ← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 b i) ((contrEquiv1 dot_S1024x64_S2048x64_S1024x2048_1_1_0_0_n_n 64 rfl rfl).symm k) = ix2 b k := funext fun a => Fin.ext (by
    match a with
    | ⟨0, _⟩ => exact lhs_qk_0 _ _
    | ⟨1, _⟩ => exact (lhs_qk_1 _ _).trans hk)
  have er : dot_S1024x64_S2048x64_S1024x2048_1_1_0_0_n_n.rhsIdx (ix2 b i) ((contrEquiv1 dot_S1024x64_S2048x64_S1024x2048_1_1_0_0_n_n 64 rfl rfl).symm k) = ix2 i k := funext fun a => Fin.ext (by
    match a with
    | ⟨0, _⟩ => exact rhs_qk_0 _ _
    | ⟨1, _⟩ => exact (rhs_qk_1 _ _).trans hk)
  rw [el, er]

/-! ## The weighted sum's product: the weights' second axis against the block's first -/

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The weighted sum's product at `(b, d)`: the sum over the block's rows `i` of the weight at `(b, i)` times the block at `(i, d)`. -/
theorem mm_pv_apply (p : FVec Ideal S1024x2048 .f32) (y : FVec Ideal S2048x64 .f32) (b : Fin 1024) (d : Fin 64) :
    matmul dot_S1024x2048_S2048x64_S1024x64_1_0_0_1_n_n none p y (constant (F := Ideal) S1024x64 .f32 0x00000000#32) (ix2 b d)
      = ∑ i : Fin 2048, p (ix2 b i) * y (ix2 i d) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 b d) ((contrEquiv1 dot_S1024x2048_S2048x64_S1024x64_1_0_0_1_n_n 2048 rfl rfl).symm k) = ix2 b k := funext fun a => Fin.ext (by
    match a with
    | ⟨0, _⟩ => exact lhs_pv_0 _ _
    | ⟨1, _⟩ => exact (lhs_pv_1 _ _).trans hk)
  have er : dot_S1024x2048_S2048x64_S1024x64_1_0_0_1_n_n.rhsIdx (ix2 b d) ((contrEquiv1 dot_S1024x2048_S2048x64_S1024x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ## The payloads of a block step, read at coordinates -/

/-- An exponential at an index is the exponential of the element. -/
theorem exp_apply {s : Shape} {φ : FTy} (a : FVec Ideal s φ) (i : s.Idx) : Idealize.ShloMosaic.exp a i = Ideal.exp (a i) := rfl

/-- The scaled scores at `(b, i)`. -/
theorem pay7_apply (x : FVec Ideal S1024x64 .f32) (y : FVec Ideal S2048x64 .f32) (b : Fin 1024) (i : Fin 2048) :
    k0_pay7 (F := Ideal) x y (ix2 b i) = (∑ k : Fin 64, x (ix2 b k) * y (ix2 i k)) * ((1 / 8 : ℝ) : EReal) := by
  unfold k0_pay7
  rw [mulf_apply, mm_qk_apply, broadcast_apply]
  show _ * Ideal.ofBits .f32 0x3E000000#32 = _
  rw [ofBits_eighth]

/-- The new running maximum at row `b`: the previous one against the fold of `max` over the row's scores. -/
theorem pay8_apply (x : FVec Ideal S1024x64 .f32) (y : FVec Ideal S2048x64 .f32) (m : FVec Ideal S1024x1 .f32) (b : Fin 1024) (z : Fin 1) :
    k0_pay8 (F := Ideal) x y m (ix2 b z)
      = max (m (ix2 b z)) ((Finset.univ : Finset (Fin 2048)).fold max (⊥ : EReal) (fun i => k0_pay7 (F := Ideal) x y (ix2 b i))) := by
  unfold k0_pay8
  rw [maximumf_apply, cast_col_apply, lane_max_apply]

/-- The rescaling factor of the previous block's sums at row `b`. -/
theorem pay9_apply (x : FVec Ideal S1024x64 .f32) (y : FVec Ideal S2048x64 .f32) (m : FVec Ideal S1024x1 .f32) (b : Fin 1024) (z : Fin 1) :
    k0_pay9 (F := Ideal) x y m (ix2 b z) = Ideal.exp (m (ix2 b z) - k0_pay8 (F := Ideal) x y m (ix2 b z)) := rfl

/-- The block's weights at `(b, i)`. -/
theorem pay10_apply (x : FVec Ideal S1024x64 .f32) (y : FVec Ideal S2048x64 .f32) (m : FVec Ideal S1024x1 .f32) (b : Fin 1024) (i : Fin 2048) :
    k0_pay10 (F := Ideal) x y m (ix2 b i)
      = Ideal.exp (k0_pay7 (F := Ideal) x y (ix2 b i) - k0_pay8 (F := Ideal) x y m (ix2 b (0 : Fin 1))) := by
  unfold k0_pay10
  rw [exp_apply, subf_apply, bcast_col2048_apply]

/-- The new denominator at row `b`. -/
theorem pay11_apply (x : FVec Ideal S1024x64 .f32) (y : FVec Ideal S2048x64 .f32) (m l : FVec Ideal S1024x1 .f32) (b : Fin 1024) (z : Fin 1) :
    k0_pay11 (F := Ideal) x y m l (ix2 b z)
      = l (ix2 b z) * k0_pay9 (F := Ideal) x y m (ix2 b z) + ∑ i : Fin 2048, k0_pay10 (F := Ideal) x y m (ix2 b i) := by
  unfold k0_pay11
  rw [shapeCast_self, addf_apply, mulf_apply, cast_col_apply, lane_sum_apply]

/-- The new weighted sum at `(b, d)`. -/
theorem pay12_apply (x : FVec Ideal S1024x64 .f32) (y : FVec Ideal S2048x64 .f32) (m : FVec Ideal S1024x1 .f32) (acc : FVec Ideal S1024x64 .f32)
    (y' : FVec Ideal S2048x64 .f32) (b : Fin 1024) (d : Fin 64) :
    k0_pay12 (F := Ideal) x y m acc y' (ix2 b d)
      = acc (ix2 b d) * k0_pay9 (F := Ideal) x y m (ix2 b (0 : Fin 1)) + ∑ i : Fin 2048, k0_pay10 (F := Ideal) x y m (ix2 b i) * y' (ix2 i d) := by
  unfold k0_pay12
  rw [shapeCast_self, addf_apply, mulf_apply, bcast_col64_apply, mm_pv_apply]

/-! ## The block step on real data -/

theorem up2_apply {n0 n1 : ℕ} (f : Fin n0 → Fin n1 → ℝ) (a : Fin n0) (c : Fin n1) : up2 f (ix2 a c) = ((f a c : ℝ) : EReal) := rfl
theorem upc_apply {n : ℕ} (f : Fin n → ℝ) (a : Fin n) (z : Fin 1) : upc f (ix2 a z) = ((f a : ℝ) : EReal) := rfl
theorem upr_apply {n : ℕ} (f : Fin n → ℝ) (u : Fin 1) (c : Fin n) : upr f (ix2 u c) = ((f c : ℝ) : EReal) := rfl

/-- The scores of real data are the lifts of the real scores. -/
theorem pay7_real (Q : Fin 1024 → Fin 64 → ℝ) (blk : Fin 2048 → Fin 64 → ℝ) (b : Fin 1024) (i : Fin 2048) :
    k0_pay7 (F := Ideal) (up2 Q) (up2 blk) (ix2 b i) = ((rowScore Q (blk i) b : ℝ) : EReal) := by
  rw [pay7_apply]
  simp only [up2_apply]
  unfold rowScore
  rw [EReal.coe_mul, coe_sum]
  simp only [EReal.coe_mul]

/-- An extended real other than plus infinity, maxed with the maximum of 2048 reals, is a real. -/
theorem max_fold_real (f : Fin 2048 → ℝ) (m0 : EReal) (hm0 : m0 ≠ ⊤) :
    ∃ r : ℝ, max m0 ((Finset.univ : Finset (Fin 2048)).fold max (⊥ : EReal) (fun i => ((f i : ℝ) : EReal))) = (r : EReal) := by
  have hlt : max m0 ((Finset.univ : Finset (Fin 2048)).fold max (⊥ : EReal) (fun i => ((f i : ℝ) : EReal))) < ⊤ :=
    max_lt (lt_top_iff_ne_top.mpr hm0) ((Finset.fold_max_lt _).mpr ⟨bot_lt_top, fun i _ => EReal.coe_lt_top _⟩)
  have hgt : ⊥ < max m0 ((Finset.univ : Finset (Fin 2048)).fold max (⊥ : EReal) (fun i => ((f i : ℝ) : EReal))) :=
    lt_max_of_lt_right ((Finset.lt_fold_max _).mpr (Or.inr ⟨0, Finset.mem_univ _, EReal.bot_lt_coe _⟩))
  exact ⟨_, (EReal.coe_toReal hlt.ne hgt.ne').symm⟩

/-- A block step on a real projected query and a real block, from any previous maximum column without plus infinity, any
    previous denominator and any previous weighted sum: the new maximum is a real column `M'`, the block's weights are
    the real exponentials at the shift `M'`, and the previous sums are rescaled by `exp (m - M')`. -/
theorem block_real (Q : Fin 1024 → Fin 64 → ℝ) (blk : Fin 2048 → Fin 64 → ℝ) (m l : FVec Ideal S1024x1 .f32)
    (acc : FVec Ideal S1024x64 .f32) (hm : ∀ (b : Fin 1024) (z : Fin 1), m (ix2 b z) ≠ ⊤) :
    ∃ M' : Fin 1024 → ℝ,
      k0_pay1 (k0_pay8 (F := Ideal) (up2 Q) (up2 blk) m) = upc M'
      ∧ (∀ (b : Fin 1024) (z : Fin 1), k0_pay11 (F := Ideal) (up2 Q) (up2 blk) m l (ix2 b z)
          = l (ix2 b z) * Ideal.exp (m (ix2 b z) - ((M' b : ℝ) : EReal))
            + ((∑ i : Fin 2048, Real.exp (rowScore Q (blk i) b - M' b) : ℝ) : EReal))
      ∧ (∀ (b : Fin 1024) (d : Fin 64), k0_pay12 (F := Ideal) (up2 Q) (up2 blk) m acc (up2 blk) (ix2 b d)
          = acc (ix2 b d) * Ideal.exp (m (ix2 b (0 : Fin 1)) - ((M' b : ℝ) : EReal))
            + ((∑ i : Fin 2048, Real.exp (rowScore Q (blk i) b - M' b) * blk i d : ℝ) : EReal)) := by
  have h8 : ∀ b : Fin 1024, ∃ r : ℝ, ∀ z : Fin 1, k0_pay8 (F := Ideal) (up2 Q) (up2 blk) m (ix2 b z) = (r : EReal) := fun b => by
    obtain ⟨r, hr⟩ := max_fold_real (fun i => rowScore Q (blk i) b) (m (ix2 b (0 : Fin 1))) (hm b 0)
    refine ⟨r, fun z => ?_⟩
    obtain rfl : z = 0 := Subsingleton.elim _ _
    rw [pay8_apply]
    simp only [pay7_real]
    exact hr
  choose M' hM' using h8
  have h10 : ∀ (b : Fin 1024) (i : Fin 2048), k0_pay10 (F := Ideal) (up2 Q) (up2 blk) m (ix2 b i)
      = ((Real.exp (rowScore Q (blk i) b - M' b) : ℝ) : EReal) := fun b i => by
    rw [pay10_apply, pay7_real, hM' b 0, ← EReal.coe_sub, Ideal.exp_coe]
  refine ⟨M', ?_, fun b z => ?_, fun b d => ?_⟩
  · funext j
    obtain ⟨b, z, rfl⟩ : ∃ (b : Fin 1024) (z : Fin 1), j = ix2 b z := ⟨j 0, j 1, eq_ix2 j⟩
    unfold k0_pay1
    rw [shapeCast_self, hM' b z, upc_apply]
  · rw [pay11_apply, pay9_apply, hM' b z, coe_sum]
    simp only [h10]
  · rw [pay12_apply, pay9_apply, hM' b 0, coe_sum]
    simp only [h10, EReal.coe_mul, up2_apply]

/-! ## The reset values -/

theorem pay4_apply (j : S1024x1.Idx) : k0_pay4 (F := Ideal) j = (⊥ : EReal) := by
  unfold k0_pay4
  rw [shapeCast_self, broadcast_apply]
  exact ofBits_neg_inf

theorem pay5_apply (j : S1024x1.Idx) : k0_pay5 (F := Ideal) j = (0 : EReal) := by
  unfold k0_pay5
  rw [shapeCast_self, broadcast_apply]
  exact Ideal.ofBits_zero_f32

theorem pay6_apply (j : S1024x64.Idx) : k0_pay6 (F := Ideal) j = (0 : EReal) := by
  unfold k0_pay6
  rw [shapeCast_self, broadcast_apply]
  exact Ideal.ofBits_zero_f32

/-- The first block, from the reset values: some real maximum `M'`, and the block's two sums at the shift `M'`. -/
theorem init_real (Q : Fin 1024 → Fin 64 → ℝ) (blk : Fin 2048 → Fin 64 → ℝ) :
    ∃ M' : Fin 1024 → ℝ,
      k0_pay1 (k0_pay8 (F := Ideal) (up2 Q) (up2 blk) (k0_pay4 (F := Ideal))) = upc M'
      ∧ k0_pay11 (F := Ideal) (up2 Q) (up2 blk) (k0_pay4 (F := Ideal)) (k0_pay5 (F := Ideal))
          = upc (fun b => ∑ i : Fin 2048, Real.exp (rowScore Q (blk i) b - M' b))
      ∧ k0_pay12 (F := Ideal) (up2 Q) (up2 blk) (k0_pay4 (F := Ideal)) (k0_pay6 (F := Ideal)) (up2 blk)
          = up2 (fun b d => ∑ i : Fin 2048, Real.exp (rowScore Q (blk i) b - M' b) * blk i d) := by
  obtain ⟨M', h1, h2, h3⟩ := block_real Q blk (k0_pay4 (F := Ideal)) (k0_pay5 (F := Ideal)) (k0_pay6 (F := Ideal))
    (fun b z => by rw [pay4_apply]; exact bot_ne_top)
  refine ⟨M', h1, ?_, ?_⟩
  · funext j
    obtain ⟨b, z, rfl⟩ : ∃ (b : Fin 1024) (z : Fin 1), j = ix2 b z := ⟨j 0, j 1, eq_ix2 j⟩
    rw [h2 b z, pay5_apply, zero_mul, zero_add, upc_apply]
  · funext j
    obtain ⟨b, d, rfl⟩ : ∃ (b : Fin 1024) (d : Fin 64), j = ix2 b d := ⟨j 0, j 1, eq_ix2 j⟩
    rw [h3 b d, pay6_apply, zero_mul, zero_add, up2_apply]

/-- A later block, from real running values `M`, `L`, `A`: some real new maximum `M'`, and the two updates. -/
theorem step_real (Q : Fin 1024 → Fin 64 → ℝ) (blk : Fin 2048 → Fin 64 → ℝ) (M L : Fin 1024 → ℝ) (A : Fin 1024 → Fin 64 → ℝ) :
    ∃ M' : Fin 1024 → ℝ,
      k0_pay1 (k0_pay8 (F := Ideal) (up2 Q) (up2 blk) (upc M)) = upc M'
      ∧ k0_pay11 (F := Ideal) (up2 Q) (up2 blk) (upc M) (upc L)
          = upc (fun b => L b * Real.exp (M b - M' b) + ∑ i : Fin 2048, Real.exp (rowScore Q (blk i) b - M' b))
      ∧ k0_pay12 (F := Ideal) (up2 Q) (up2 blk) (upc M) (up2 A) (up2 blk)
          = up2 (fun b d => A b d * Real.exp (M b - M' b) + ∑ i : Fin 2048, Real.exp (rowScore Q (blk i) b - M' b) * blk i d) := by
  obtain ⟨M', h1, h2, h3⟩ := block_real Q blk (upc M) (upc L) (up2 A) (fun b z => EReal.coe_ne_top _)
  refine ⟨M', h1, ?_, ?_⟩
  · funext j
    obtain ⟨b, z, rfl⟩ : ∃ (b : Fin 1024) (z : Fin 1), j = ix2 b z := ⟨j 0, j 1, eq_ix2 j⟩
    rw [h2 b z, upc_apply, upc_apply, upc_apply, ← EReal.coe_sub, Ideal.exp_coe, ← EReal.coe_mul, ← EReal.coe_add]
  · funext j
    obtain ⟨b, d, rfl⟩ : ∃ (b : Fin 1024) (d : Fin 64), j = ix2 b d := ⟨j 0, j 1, eq_ix2 j⟩
    rw [h3 b d, upc_apply, up2_apply, up2_apply, ← EReal.coe_sub, Ideal.exp_coe, ← EReal.coe_mul, ← EReal.coe_add]

/-- The final quotient, weighted sum over a nonzero denominator. -/
theorem quot_real (A : Fin 1024 → Fin 64 → ℝ) (L : Fin 1024 → ℝ) (hL : ∀ b, L b ≠ 0) :
    k0_pay2 (F := Ideal) (up2 A) (upc L) = up2 (fun b d => A b d / L b) := by
  funext j
  obtain ⟨b, d, rfl⟩ : ∃ (b : Fin 1024) (d : Fin 64), j = ix2 b d := ⟨j 0, j 1, eq_ix2 j⟩
  unfold k0_pay2
  rw [divf_apply, bcast_col64_apply, up2_apply, up2_apply, upc_apply, Ideal.div_coe (hL b), ← EReal.coe_mul, mul_one_div]

end Cert.KernelIdeal.StepReal

end
-- ==== Proof.Softmax.lean ====
/-
  The algebra of the softmax over the reals: a weighted sum of exponentials of shifted scores, taken block by block
  with the shift changing from block to block (the kernel's running maximum), divided by the same sum without the
  weights, is the softmax-weighted mean — whatever the shifts were.

  Three facts carry it. (1) `rescale`: a sum of `exp (s i - M) * x i` times `exp (M - M')` is the same sum at the shift
  `M'`, because `exp (s - M) * exp (M - M') = exp (s - M')`. So the update "old sum times `exp (old shift - new shift)`
  plus the new block's sum at the new shift" keeps the invariant "the sum over the blocks so far, at the current
  shift" (`step_acc`, `step_den`). (2) `quot_shift`: numerator and denominator at a common shift `M` both carry the
  factor `exp (-M)`, which cancels. (3) `sum_blocks`: 32 blocks of 2048 rows are the 65536 rows.
-/
import proofs.«153952_g34059090657292_cont_8to1_b_1253_2_alg».proof.Proof.Spec
import Mathlib.Logic.Equiv.Fin.Basic

noncomputable section

namespace Cert.Softmax

open Finset Cert.Spec

section Abstract

variable {ι : Type*} [Fintype ι]

/-- Moving a weighted sum of shifted exponentials from the shift `M` to the shift `M'`. -/
theorem rescale (s x : ι → ℝ) (M M' : ℝ) :
    (∑ i, Real.exp (s i - M) * x i) * Real.exp (M - M') = ∑ i, Real.exp (s i - M') * x i := by
  rw [Finset.sum_mul]
  refine Finset.sum_congr rfl fun i _ => ?_
  have h : Real.exp (s i - M') = Real.exp (s i - M) * Real.exp (M - M') := by
    rw [← Real.exp_add]; congr 1; ring
  rw [h]; ring

/-- One step of the running weighted sum: the blocks so far at the old shift, moved to the new shift, plus the new block. -/
theorem step_acc (s x : ℕ → ι → ℝ) (n : ℕ) (M M' : ℝ) :
    (∑ u ∈ range n, ∑ i, Real.exp (s u i - M) * x u i) * Real.exp (M - M') + ∑ i, Real.exp (s n i - M') * x n i
      = ∑ u ∈ range (n + 1), ∑ i, Real.exp (s u i - M') * x u i := by
  rw [Finset.sum_range_succ, Finset.sum_mul]
  congr 1
  exact Finset.sum_congr rfl fun u _ => rescale (s u) (x u) M M'

/-- The same for the running denominator (all weights one). -/
theorem step_den (s : ℕ → ι → ℝ) (n : ℕ) (M M' : ℝ) :
    (∑ u ∈ range n, ∑ i, Real.exp (s u i - M)) * Real.exp (M - M') + ∑ i, Real.exp (s n i - M')
      = ∑ u ∈ range (n + 1), ∑ i, Real.exp (s u i - M') := by
  have h := step_acc s (fun _ _ => (1 : ℝ)) n M M'
  simpa only [mul_one] using h

/-- A weighted sum of shifted exponentials carries the factor `exp (-M)`. -/
theorem shift_out (s x : ι → ℝ) (M : ℝ) :
    ∑ j, Real.exp (s j - M) * x j = Real.exp (-M) * ∑ j, Real.exp (s j) * x j := by
  rw [Finset.mul_sum]
  refine Finset.sum_congr rfl fun j _ => ?_
  rw [sub_eq_add_neg, Real.exp_add]; ring

/-- The quotient of the two sums does not depend on the shift. -/
theorem quot_shift (s x : ι → ℝ) (M : ℝ) :
    (∑ j, Real.exp (s j - M) * x j) / (∑ j, Real.exp (s j - M)) = (∑ j, Real.exp (s j) * x j) / (∑ j, Real.exp (s j)) := by
  have h1 := shift_out s x M
  have h2 := shift_out s (fun _ => (1 : ℝ)) M
  simp only [mul_one] at h2
  rw [h1, h2, mul_div_mul_left _ _ (Real.exp_pos _).ne']

/-- The reference's order of operations: normalise each exponential first, then weigh and sum. -/
theorem normalised_sum (s x : ι → ℝ) (M : ℝ) :
    ∑ j, (Real.exp (s j - M) / ∑ k, Real.exp (s k - M)) * x j = (∑ j, Real.exp (s j) * x j) / (∑ j, Real.exp (s j)) := by
  rw [← quot_shift s x M, Finset.sum_div]
  exact Finset.sum_congr rfl fun j _ => by ring

end Abstract

/-- 32 blocks of 2048 rows are the 65536 rows: a sum over the blocks and the rows of each is the sum over all rows. -/
theorem sum_blocks (F : Fin 65536 → ℝ) (Fb : ℕ → Fin 2048 → ℝ)
    (h : ∀ (u : ℕ) (i : Fin 2048) (hh : 2048 * u + i.val < 65536), Fb u i = F ⟨2048 * u + i.val, hh⟩) :
    ∑ u ∈ range 32, ∑ i : Fin 2048, Fb u i = ∑ j : Fin 65536, F j := by
  rw [Finset.sum_range fun u => ∑ i : Fin 2048, Fb u i, ← Fintype.sum_prod_type']
  refine Fintype.sum_equiv (finProdFinEquiv.trans (finCongr (by norm_num))) _ _ fun p => ?_
  have hp : 2048 * p.1.val + p.2.val < 65536 := by have := p.1.isLt; have := p.2.isLt; omega
  rw [h p.1.val p.2 hp]
  congr 1
  apply Fin.ext
  simp [finProdFinEquiv]
  omega

section Final

variable (q : Fin 1024 → Fin 64 → ℝ) (bf : Fin 65536 → Fin 64 → ℝ) (W : Fin 64 → Fin 64 → ℝ) (bias : Fin 64 → ℝ)

/-- The running denominator is positive: a sum of exponentials over at least one row. -/
theorem den_pos (b : Fin 1024) (n : ℕ) (M : ℝ) :
    0 < ∑ u ∈ range (n + 1), ∑ i : Fin 2048, Real.exp (rowScore (proj q W bias) (blockRow bf u i) b - M) :=
  Finset.sum_pos (fun u _ => Finset.sum_pos (fun i _ => Real.exp_pos _) ⟨0, Finset.mem_univ _⟩) ⟨0, by simp⟩

/-- After all 32 blocks, at whatever shift: weighted sum over denominator is the read-out. -/
theorem blocks_quot (b : Fin 1024) (d : Fin 64) (M : ℝ) :
    (∑ u ∈ range 32, ∑ i : Fin 2048, Real.exp (rowScore (proj q W bias) (blockRow bf u i) b - M) * blockRow bf u i d)
      / (∑ u ∈ range 32, ∑ i : Fin 2048, Real.exp (rowScore (proj q W bias) (blockRow bf u i) b - M))
      = out q bf W bias b d := by
  rw [sum_blocks (fun j => Real.exp (score q bf W bias b j - M) * bf j d) _ (fun u i hh => by simp only [blockRow, dif_pos hh, score]),
    sum_blocks (fun j => Real.exp (score q bf W bias b j - M)) _ (fun u i hh => by simp only [blockRow, dif_pos hh, score])]
  exact quot_shift (fun j => score q bf W bias b j) (fun j => bf j d) M

/-- The reference's form, at whatever shift, is the read-out. -/
theorem normalised_quot (b : Fin 1024) (d : Fin 64) (M : ℝ) :
    ∑ j : Fin 65536, (Real.exp (score q bf W bias b j - M) / ∑ k : Fin 65536, Real.exp (score q bf W bias b k - M)) * bf j d
      = out q bf W bias b d :=
  normalised_sum (fun j => score q bf W bias b j) (fun j => bf j d) M

end Final

end Cert.Softmax

end
-- ==== Proof.Kernel.lean ====
/-
  The kernel's run, read: after the 32 grid points the result array holds the attention read-out of the arguments'
  real parts.
-/
import proofs.«153952_g34059090657292_cont_8to1_b_1253_2_alg».proof.Proof.Gen.KernelIdeal.Value
import proofs.«153952_g34059090657292_cont_8to1_b_1253_2_alg».proof.Proof.Pieces
import proofs.«153952_g34059090657292_cont_8to1_b_1253_2_alg».proof.Proof.StepReal
import proofs.«153952_g34059090657292_cont_8to1_b_1253_2_alg».proof.Proof.Spec
import proofs.«153952_g34059090657292_cont_8to1_b_1253_2_alg».proof.Proof.Softmax
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Attn

open Finset Idealize.ShloMosaic Idealize.ShloMosaic.TcCoe Idealize.ShloMosaic.ValueIdx Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-! ## The arguments, and the blocks the windows read -/

/-- The query array. -/
abbrev qArr (c : Dev nD) : Vec Ideal S1024x64 .f32 := m ((c : Thread nD τ).loc main_arg0)
/-- The memory array. -/
abbrev memArr (c : Dev nD) : Vec Ideal S65536x64 .f32 := m ((c : Thread nD τ).loc main_arg1)
/-- The projection's weights. -/
abbrev wArr (c : Dev nD) : Vec Ideal S64x64 .f32 := m ((c : Thread nD τ).loc main_arg2)
/-- The projection's bias. -/
abbrev bArr (c : Dev nD) : Vec Ideal S64 .f32 := m ((c : Thread nD τ).loc main_arg3)

/-- Every entry of the four arguments is a real number. -/
def ArgsReal (c : Dev nD) : Prop := AllReal (qArr m c) ∧ AllReal (memArr m c) ∧ AllReal (wArr m c) ∧ AllReal (bArr m c)

/-- The windows' block indices over the grid: only the memory's window moves, one block of 2048 rows a point. -/
theorem index_facts : ∀ t : Fin cfg0.N,
    (win0_0.index t 0 = 0 ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N, _)

/-- The output window's block has the array's full extents at every point. -/
theorem out_extent : ∀ t : Fin cfg0.N, win0_4.xsize (grid0.coords t) 0 = 1024 ∧ win0_4.xsize (grid0.coords t) 1 = 64 :=
  (by decide +kernel : ∀ t : Fin grid0.N, _)

/-- The query window's block at any point is the whole query array. -/
theorem qblk_eq (c : Dev nD) (t : Fin cfg0.N) (h : ArgsReal m c) :
    (iblk m c 0 t : Vec Ideal S1024x64 .f32) = up2 (re2 (qArr m c)) := by
  rw [up2_re2 _ h.1]
  funext j
  unfold iblk
  rw [View.read_apply]
  show V m c main_arg0 _ = _
  rw [V_main_arg0]
  congr 1
  funext a
  apply Fin.ext
  have hi := (index_facts t).1
  match a with
  | ⟨0, _⟩ => show win0_0.index t 0 * 1024 + 1 * (j 0).val = (j 0).val; rw [hi.1]; omega
  | ⟨1, _⟩ => show win0_0.index t 1 * 64 + 1 * (j 1).val = (j 1).val; rw [hi.2]; omega

/-- The weight window's block at any point is the whole weight array. -/
theorem wblk_eq (c : Dev nD) (t : Fin cfg0.N) (h : ArgsReal m c) :
    (iblk m c 2 t : Vec Ideal S64x64 .f32) = up2 (re2 (wArr m c)) := by
  rw [up2_re2 _ h.2.2.1]
  funext j
  unfold iblk
  rw [View.read_apply]
  show V m c main_arg2 _ = _
  rw [V_main_arg2]
  congr 1
  funext a
  apply Fin.ext
  have hi := (index_facts t).2.2.1
  match a with
  | ⟨0, _⟩ => show win0_2.index t 0 * 64 + 1 * (j 0).val = (j 0).val; rw [hi.1]; omega
  | ⟨1, _⟩ => show win0_2.index t 1 * 64 + 1 * (j 1).val = (j 1).val; rw [hi.2]; omega

/-- The memory window's block at point `t` is memory rows `2048 t` to `2048 t + 2047`. -/
theorem memblk_eq (c : Dev nD) (t : Fin cfg0.N) (h : ArgsReal m c) :
    (iblk m c 1 t : Vec Ideal S2048x64 .f32) = up2 (blockRow (re2 (memArr m c)) t.val) := by
  funext j
  obtain ⟨p, e, rfl⟩ : ∃ (p : Fin 2048) (e : Fin 64), j = ix2 p e := ⟨j 0, j 1, eq_ix2 j⟩
  have hN : cfg0.N = 32 := N_0
  have hlt : 2048 * t.val + p.val < 65536 := by have := t.isLt; have := p.isLt; omega
  unfold iblk
  rw [View.read_apply]
  show V m c main_arg1 _ = ((blockRow (re2 (memArr m c)) t.val p e : ℝ) : EReal)
  rw [V_main_arg1]
  simp only [blockRow, dif_pos hlt, re2]
  obtain ⟨r, hr⟩ := h.2.1 (ix2 ⟨2048 * t.val + p.val, hlt⟩ e)
  rw [hr, EReal.toReal_coe, ← hr]
  congr 1
  funext a
  apply Fin.ext
  have hi := (index_facts t).2.1
  match a with
  | ⟨0, _⟩ => show win0_1.index t 0 * 2048 + 1 * p.val = 2048 * t.val + p.val; rw [hi.1]; omega
  | ⟨1, _⟩ => show win0_1.index t 1 * 64 + 1 * e.val = e.val; rw [hi.2]; omega

/-- The bias reaches the kernel as a `[1, 64]` row: the host reshapes the bias vector before the call. -/
theorem V_bias (c : Dev nD) (hc : S64.ShapeCasts S1x64) :
    (V m c main_v0 : Vec Ideal S1x64 .f32) = shapeCast S1x64 (bArr m c) hc := by
  dsimp only [V, hostOps0]
  after_results
  rfl

/-- The bias window's block at any point is that row. -/
theorem bblk_eq (c : Dev nD) (t : Fin cfg0.N) (h : ArgsReal m c) :
    (iblk m c 3 t : Vec Ideal S1x64 .f32) = upr (re1 (bArr m c)) := by
  funext j
  obtain ⟨p, e, rfl⟩ : ∃ (p : Fin 1) (e : Fin 64), j = ix2 p e := ⟨j 0, j 1, eq_ix2 j⟩
  unfold iblk
  rw [View.read_apply]
  show V m c main_v0 _ = ((re1 (bArr m c) e : ℝ) : EReal)
  rw [V_bias m c (by decide)]
  obtain ⟨r, hr⟩ := h.2.2.2 (ix1 e)
  simp only [re1]
  rw [hr, EReal.toReal_coe, ← hr]
  refine shapeCast_apply _ _ _ (ix1 e) ?_
  have hi := (index_facts t).2.2.2.1
  rw [Shape.rowMajor_val_one, Shape.rowMajor_val_two]
  show e.val = (win0_3.index t 0 * 1 + 1 * p.val) * 64 + (win0_3.index t 1 * 64 + 1 * e.val)
  rw [hi.1, hi.2]
  have := p.isLt
  omega

/-! ## What a point leaves, as the body's arithmetic on the point's blocks and the previous point's values -/

/-- The query block at a point, at its literal type. -/
abbrev qblk (c : Dev nD) (t : Fin cfg0.N) : Vec Ideal S1024x64 .f32 := iblk m c 0 t
/-- The memory block at a point. -/
abbrev mblk (c : Dev nD) (t : Fin cfg0.N) : Vec Ideal S2048x64 .f32 := iblk m c 1 t
/-- The weight block at a point. -/
abbrev wblk (c : Dev nD) (t : Fin cfg0.N) : Vec Ideal S64x64 .f32 := iblk m c 2 t
/-- The bias row at a point. -/
abbrev bblk (c : Dev nD) (t : Fin cfg0.N) : Vec Ideal S1x64 .f32 := iblk m c 3 t

theorem qblk_real (c : Dev nD) (t : Fin cfg0.N) (h : ArgsReal m c) : qblk m c t = up2 (re2 (qArr m c)) := qblk_eq m c t h
theorem mblk_real (c : Dev nD) (t : Fin cfg0.N) (h : ArgsReal m c) : mblk m c t = up2 (blockRow (re2 (memArr m c)) t.val) := memblk_eq m c t h
theorem wblk_real (c : Dev nD) (t : Fin cfg0.N) (h : ArgsReal m c) : wblk m c t = up2 (re2 (wArr m c)) := wblk_eq m c t h
theorem bblk_real (c : Dev nD) (t : Fin cfg0.N) (h : ArgsReal m c) : bblk m c t = upr (re1 (bArr m c)) := bblk_eq m c t h

/-- First point: the projected query. -/
theorem first_proj_at (c : Dev nD) (t : Fin cfg0.N) (h0 : t.val % 32 = 0) (h1 : ¬t.val % 32 = 31) :
    (outsAt0 m c t.val t.isLt).2.1 = (k0_pay3 (qblk m c t) (wblk m c t) (bblk m c t)) := by
  rw [outsAt0_A m c t h0 h1]
  dsimp only
  exact Pieces.first_proj (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (qblk m c t) (mblk m c t) (wblk m c t) (bblk m c t)

/-- First point: the running maximum. -/
theorem first_max_at (c : Dev nD) (t : Fin cfg0.N) (h0 : t.val % 32 = 0) (h1 : ¬t.val % 32 = 31) :
    (outsAt0 m c t.val t.isLt).2.2.1 = k0_pay1 (k0_pay8 (k0_pay3 (qblk m c t) (wblk m c t) (bblk m c t)) (mblk m c t) (k0_pay4 (F := Ideal))) := by
  rw [outsAt0_A m c t h0 h1]
  dsimp only
  exact Pieces.first_max (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (qblk m c t) (mblk m c t) (wblk m c t) (bblk m c t)

/-- First point: the running denominator. -/
theorem first_den_at (c : Dev nD) (t : Fin cfg0.N) (h0 : t.val % 32 = 0) (h1 : ¬t.val % 32 = 31) :
    (outsAt0 m c t.val t.isLt).2.2.2.1 = k0_pay11 (k0_pay3 (qblk m c t) (wblk m c t) (bblk m c t)) (mblk m c t) (k0_pay4 (F := Ideal)) (k0_pay5 (F := Ideal)) := by
  rw [outsAt0_A m c t h0 h1]
  dsimp only
  exact Pieces.first_den (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (qblk m c t) (mblk m c t) (wblk m c t) (bblk m c t)

/-- First point: the running weighted sum. -/
theorem first_acc_at (c : Dev nD) (t : Fin cfg0.N) (h0 : t.val % 32 = 0) (h1 : ¬t.val % 32 = 31) :
    (outsAt0 m c t.val t.isLt).2.2.2.2 = k0_pay12 (k0_pay3 (qblk m c t) (wblk m c t) (bblk m c t)) (mblk m c t) (k0_pay4 (F := Ideal)) (k0_pay6 (F := Ideal)) (mblk m c t) := by
  rw [outsAt0_A m c t h0 h1]
  dsimp only
  exact Pieces.first_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (qblk m c t) (mblk m c t) (wblk m c t) (bblk m c t)

/-- A middle point keeps the projected query. -/
theorem mid_proj_at (c : Dev nD) (t : Fin cfg0.N) (h0 : ¬t.val % 32 = 0) (h1 : ¬t.val % 32 = 31) :
    (outsAt0 m c t.val t.isLt).2.1 = (outsAt0 m c (t.val - 1) (Nat.lt_of_le_of_lt (Nat.sub_le _ _) t.isLt)).2.1 := by
  rw [outsAt0_B m c t h0 h1]
  dsimp only
  exact Pieces.mid_proj (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (qblk m c t) (mblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- A middle point's running maximum. -/
theorem mid_max_at (c : Dev nD) (t : Fin cfg0.N) (h0 : ¬t.val % 32 = 0) (h1 : ¬t.val % 32 = 31) :
    (outsAt0 m c t.val t.isLt).2.2.1 = k0_pay1 (k0_pay8 (outsAt0 m c (t.val - 1) (Nat.lt_of_le_of_lt (Nat.sub_le _ _) t.isLt)).2.1 (mblk m c t) (outsAt0 m c (t.val - 1) (Nat.lt_of_le_of_lt (Nat.sub_le _ _) t.isLt)).2.2.1) := by
  rw [outsAt0_B m c t h0 h1]
  dsimp only
  exact Pieces.mid_max (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (qblk m c t) (mblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- A middle point's running denominator. -/
theorem mid_den_at (c : Dev nD) (t : Fin cfg0.N) (h0 : ¬t.val % 32 = 0) (h1 : ¬t.val % 32 = 31) :
    (outsAt0 m c t.val t.isLt).2.2.2.1 = k0_pay11 (outsAt0 m c (t.val - 1) (Nat.lt_of_le_of_lt (Nat.sub_le _ _) t.isLt)).2.1 (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 := by
  rw [outsAt0_B m c t h0 h1]
  dsimp only
  exact Pieces.mid_den (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (qblk m c t) (mblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- A middle point's running weighted sum. -/
theorem mid_acc_at (c : Dev nD) (t : Fin cfg0.N) (h0 : ¬t.val % 32 = 0) (h1 : ¬t.val % 32 = 31) :
    (outsAt0 m c t.val t.isLt).2.2.2.2 = k0_pay12 (outsAt0 m c (t.val - 1) (Nat.lt_of_le_of_lt (Nat.sub_le _ _) t.isLt)).2.1 (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2.2 (mblk m c t) := by
  rw [outsAt0_B m c t h0 h1]
  dsimp only
  exact Pieces.mid_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (qblk m c t) (mblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The last point keeps the projected query. -/
theorem last_proj_at (c : Dev nD) (t : Fin cfg0.N) (h0 : ¬t.val % 32 = 0) (h1 : t.val % 32 = 31) :
    (outsAt0 m c t.val t.isLt).2.1 = (outsAt0 m c (t.val - 1) (Nat.lt_of_le_of_lt (Nat.sub_le _ _) t.isLt)).2.1 := by
  rw [outsAt0_C m c t h0 h1]
  dsimp only
  exact Pieces.last_proj (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (qblk m c t) (mblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The last point's running maximum. -/
theorem last_max_at (c : Dev nD) (t : Fin cfg0.N) (h0 : ¬t.val % 32 = 0) (h1 : t.val % 32 = 31) :
    (outsAt0 m c t.val t.isLt).2.2.1 = k0_pay1 (k0_pay8 (outsAt0 m c (t.val - 1) (Nat.lt_of_le_of_lt (Nat.sub_le _ _) t.isLt)).2.1 (mblk m c t) (outsAt0 m c (t.val - 1) (Nat.lt_of_le_of_lt (Nat.sub_le _ _) t.isLt)).2.2.1) := by
  rw [outsAt0_C m c t h0 h1]
  dsimp only
  exact Pieces.last_max (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (qblk m c t) (mblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The last point's running denominator. -/
theorem last_den_at (c : Dev nD) (t : Fin cfg0.N) (h0 : ¬t.val % 32 = 0) (h1 : t.val % 32 = 31) :
    (outsAt0 m c t.val t.isLt).2.2.2.1 = k0_pay11 (outsAt0 m c (t.val - 1) (Nat.lt_of_le_of_lt (Nat.sub_le _ _) t.isLt)).2.1 (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 := by
  rw [outsAt0_C m c t h0 h1]
  dsimp only
  exact Pieces.last_den (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (qblk m c t) (mblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The last point's running weighted sum. -/
theorem last_acc_at (c : Dev nD) (t : Fin cfg0.N) (h0 : ¬t.val % 32 = 0) (h1 : t.val % 32 = 31) :
    (outsAt0 m c t.val t.isLt).2.2.2.2 = k0_pay12 (outsAt0 m c (t.val - 1) (Nat.lt_of_le_of_lt (Nat.sub_le _ _) t.isLt)).2.1 (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2.2 (mblk m c t) := by
  rw [outsAt0_C m c t h0 h1]
  dsimp only
  exact Pieces.last_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (qblk m c t) (mblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The last point's output block: its weighted sum over its denominator. -/
theorem last_out_at (c : Dev nD) (t : Fin cfg0.N) (h0 : ¬t.val % 32 = 0) (h1 : t.val % 32 = 31) :
    (outsAt0 m c t.val t.isLt).1 = k0_pay2 (k0_pay12 (outsAt0 m c (t.val - 1) (Nat.lt_of_le_of_lt (Nat.sub_le _ _) t.isLt)).2.1 (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2.2 (mblk m c t)) (k0_pay11 (outsAt0 m c (t.val - 1) (Nat.lt_of_le_of_lt (Nat.sub_le _ _) t.isLt)).2.1 (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1) := by
  rw [outsAt0_C m c t h0 h1]
  dsimp only
  exact Pieces.last_out (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (qblk m c t) (mblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## The invariant of the online softmax -/

/-- The projected query of the arguments' real parts. -/
abbrev Qr (c : Dev nD) : Fin 1024 → Fin 64 → ℝ := proj (re2 (qArr m c)) (re2 (wArr m c)) (re1 (bArr m c))
/-- The memory's real parts. -/
abbrev memR (c : Dev nD) : Fin 65536 → Fin 64 → ℝ := re2 (memArr m c)

/-- The running denominator over the first `n` blocks at the shifts `M`. -/
def denUpTo (c : Dev nD) (n : ℕ) (M : Fin 1024 → ℝ) (b : Fin 1024) : ℝ :=
  ∑ u ∈ range n, ∑ i : Fin 2048, Real.exp (rowScore (Qr m c) (blockRow (memR m c) u i) b - M b)

/-- The running weighted sum over the first `n` blocks at the shifts `M`. -/
def accUpTo (c : Dev nD) (n : ℕ) (M : Fin 1024 → ℝ) (b : Fin 1024) (d : Fin 64) : ℝ :=
  ∑ u ∈ range n, ∑ i : Fin 2048, Real.exp (rowScore (Qr m c) (blockRow (memR m c) u i) b - M b) * blockRow (memR m c) u i d

/-- THE INVARIANT after point `n`: the scratch buffers hold the projected query, some real shifts `M` (one a row),
    and the denominator and the weighted sum over blocks `0 … n` at those shifts. -/
def Inv (c : Dev nD) (n : ℕ) (hn : n < cfg0.N) : Prop :=
  ∃ M : Fin 1024 → ℝ,
    (outsAt0 m c n hn).2.1 = up2 (Qr m c)
    ∧ (outsAt0 m c n hn).2.2.1 = upc M
    ∧ (outsAt0 m c n hn).2.2.2.1 = upc (denUpTo m c (n + 1) M)
    ∧ (outsAt0 m c n hn).2.2.2.2 = up2 (accUpTo m c (n + 1) M)

/-- The projection at a point, on real arguments, is the lift of the projected query. -/
theorem proj_at (c : Dev nD) (t : Fin cfg0.N) (h : ArgsReal m c) :
    k0_pay3 (qblk m c t) (wblk m c t) (bblk m c t) = up2 (Qr m c) := by
  rw [qblk_real m c t h, wblk_real m c t h, bblk_real m c t h]
  exact StepReal.proj_real _ _ _

/-- After the first point: the first block's sums at the first block's shifts. -/
theorem inv_first (c : Dev nD) (h : ArgsReal m c) (hn : 0 < cfg0.N) : Inv m c 0 hn := by
  have h0 : (⟨0, hn⟩ : Fin cfg0.N).val % 32 = 0 := rfl
  have h1 : ¬(⟨0, hn⟩ : Fin cfg0.N).val % 32 = 31 := by dsimp only; omega
  have eQ := proj_at m c ⟨0, hn⟩ h
  have eB := mblk_real m c ⟨0, hn⟩ h
  obtain ⟨M', e1, e2, e3⟩ := StepReal.init_real (Qr m c) (blockRow (memR m c) 0)
  refine ⟨M', (first_proj_at m c ⟨0, hn⟩ h0 h1).trans eQ, (first_max_at m c ⟨0, hn⟩ h0 h1).trans ?_,
    (first_den_at m c ⟨0, hn⟩ h0 h1).trans ?_, (first_acc_at m c ⟨0, hn⟩ h0 h1).trans ?_⟩
  · rw [eQ, eB]; exact e1
  · rw [eQ, eB]
    refine e2.trans (congrArg upc (funext fun b => ?_))
    simp only [denUpTo, zero_add, Finset.sum_range_one]
  · rw [eQ, eB]
    refine e3.trans (congrArg up2 (funext fun b => funext fun d => ?_))
    simp only [accUpTo, zero_add, Finset.sum_range_one]

/-- A later point, given what it leaves as the body's arithmetic on the previous point's values: the previous
    sums are moved to the new shifts and the new block's are added. -/
theorem inv_of_update (c : Dev nD) (t : Fin cfg0.N) (h : ArgsReal m c) (h0 : ¬t.val % 32 = 0)
    (ih : Inv m c (t.val - 1) (Nat.lt_of_le_of_lt (Nat.sub_le _ _) t.isLt))
    (c0 : (outsAt0 m c t.val t.isLt).2.1 = (outsAt0 m c (t.val - 1) (Nat.lt_of_le_of_lt (Nat.sub_le _ _) t.isLt)).2.1)
    (c1 : (outsAt0 m c t.val t.isLt).2.2.1 = k0_pay1 (k0_pay8 (outsAt0 m c (t.val - 1) (Nat.lt_of_le_of_lt (Nat.sub_le _ _) t.isLt)).2.1 (mblk m c t) (outsAt0 m c (t.val - 1) (Nat.lt_of_le_of_lt (Nat.sub_le _ _) t.isLt)).2.2.1))
    (c2 : (outsAt0 m c t.val t.isLt).2.2.2.1 = k0_pay11 (outsAt0 m c (t.val - 1) (Nat.lt_of_le_of_lt (Nat.sub_le _ _) t.isLt)).2.1 (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1)
    (c3 : (outsAt0 m c t.val t.isLt).2.2.2.2 = k0_pay12 (outsAt0 m c (t.val - 1) (Nat.lt_of_le_of_lt (Nat.sub_le _ _) t.isLt)).2.1 (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2.2 (mblk m c t)) :
    Inv m c t.val t.isLt := by
  obtain ⟨M, e0, e1, e2, e3⟩ := ih
  have hpos : t.val - 1 + 1 = t.val := by
    have : t.val ≠ 0 := fun hz => h0 (by rw [hz])
    omega
  rw [hpos] at e2 e3
  have eB := mblk_real m c t h
  obtain ⟨M', f1, f2, f3⟩ := StepReal.step_real (Qr m c) (blockRow (memR m c) t.val) M (denUpTo m c t.val M) (accUpTo m c t.val M)
  refine ⟨M', c0.trans e0, c1.trans ?_, c2.trans ?_, c3.trans ?_⟩
  · rw [e0, e1, eB]; exact f1
  · rw [e0, e1, e2, eB]
    refine f2.trans (congrArg upc (funext fun b => ?_))
    exact Softmax.step_den (fun u i => rowScore (Qr m c) (blockRow (memR m c) u i) b) t.val (M b) (M' b)
  · rw [e0, e1, e3, eB]
    refine f3.trans (congrArg up2 (funext fun b => funext fun d => ?_))
    exact Softmax.step_acc (fun u i => rowScore (Qr m c) (blockRow (memR m c) u i) b) (fun u i => blockRow (memR m c) u i d)
      t.val (M b) (M' b)

/-- The invariant holds after every point: by induction on the point. -/
theorem inv_all (c : Dev nD) (h : ArgsReal m c) : ∀ (n : ℕ) (hn : n < cfg0.N), Inv m c n hn
  | 0, hn => inv_first m c h hn
  | n + 1, hn => by
    have hN : cfg0.N = 32 := N_0
    have ih : Inv m c n (Nat.lt_of_succ_lt hn) := inv_all c h n (Nat.lt_of_succ_lt hn)
    have h0 : ¬(⟨n + 1, hn⟩ : Fin cfg0.N).val % 32 = 0 := by dsimp only; omega
    by_cases h1 : (⟨n + 1, hn⟩ : Fin cfg0.N).val % 32 = 31
    · exact inv_of_update m c ⟨n + 1, hn⟩ h h0 ih (last_proj_at m c ⟨n + 1, hn⟩ h0 h1) (last_max_at m c ⟨n + 1, hn⟩ h0 h1)
        (last_den_at m c ⟨n + 1, hn⟩ h0 h1) (last_acc_at m c ⟨n + 1, hn⟩ h0 h1)
    · exact inv_of_update m c ⟨n + 1, hn⟩ h h0 ih (mid_proj_at m c ⟨n + 1, hn⟩ h0 h1) (mid_max_at m c ⟨n + 1, hn⟩ h0 h1)
        (mid_den_at m c ⟨n + 1, hn⟩ h0 h1) (mid_acc_at m c ⟨n + 1, hn⟩ h0 h1)

/-! ## The result array -/

/-- The target at the kernel's arguments. -/
abbrev target (c : Dev nD) : Vec Ideal S1024x64 .f32 := G (qArr m c) (memArr m c) (wArr m c) (bArr m c)

/-- The last point's output block is the read-out: the weighted sum over the denominator after all 32 blocks. -/
theorem out_last (c : Dev nD) (h : ArgsReal m c) (t : Fin cfg0.N) (ht : t.val % 32 = 31) :
    (outsAt0 m c t.val t.isLt).1 = target m c := by
  have hN : cfg0.N = 32 := N_0
  have h0 : ¬t.val % 32 = 0 := by omega
  have h31 : t.val = 31 := by have := t.isLt; omega
  obtain ⟨M, e0, e1, e2, e3⟩ := inv_all m c h t.val t.isLt
  rw [last_out_at m c t h0 ht, ← last_acc_at m c t h0 ht, ← last_den_at m c t h0 ht, e2, e3]
  have hL : ∀ b, denUpTo m c (t.val + 1) M b ≠ 0 := fun b => by
    unfold denUpTo
    exact (Softmax.den_pos _ _ _ _ b t.val (M b)).ne'
  rw [StepReal.quot_real _ _ hL]
  refine congrArg up2 (funext fun b => funext fun d => ?_)
  unfold accUpTo denUpTo
  rw [h31]
  exact Softmax.blocks_quot (re2 (qArr m c)) (memR m c) (re2 (wArr m c)) (re1 (bArr m c)) b d (M b)

/-- The one write-back, after the last point, writes the read-out: the output's block is the whole array. -/
theorem flushed_eq (c : Dev nD) (h : ArgsReal m c) (t : Fin cfg0.N) (hf : (cfg0.win 4).flush t = true) :
    (dats m 0 c).flushed 4 t = ((cfg0.win 4).blk t).view.read (Elt Ideal) (target m c) := by
  have ht : t.val % 32 = 31 := (flush0_4 t).mp hf
  rw [Value.flushed4, out_last m c h t ht]
  have hi := (index_facts t).2.2.2.2
  have hz' : (fun a => win0_4.index t a * main_v1.ty.shape.size a) = fun _ => 0 := funext fun a => by
    match a with
    | ⟨0, _⟩ => show win0_4.index t 0 * _ = 0; rw [hi.1, Nat.zero_mul]
    | ⟨1, _⟩ => show win0_4.index t 1 * _ = 0; rw [hi.2, Nat.zero_mul]
  exact (Memref.read_access_unit_zero (Elt Ideal) main_v1 hz' (fun a => by rw [congrFun hz' a]; simp) (target m c)).symm

/-- So the result array ends holding the read-out: the last point's block covers it. -/
theorem final (c : Dev nD) (h : ArgsReal m c) : (dats m 0 c).arrAt 4 cfg0.N = target m c := by
  have hN : cfg0.N = 32 := N_0
  have h31 : (31 : ℕ) < cfg0.N := by omega
  refine (dats m 0 c).arrAt_eq_of_cover 4 (target m c) (flushed_eq m c h) fun i => ⟨⟨31, h31⟩, (flush0_4 ⟨31, h31⟩).mpr rfl, ?_⟩
  have hi := (index_facts ⟨31, h31⟩).2.2.2.2
  show i ∈ ((View.whole main_v1).slice (win0_4.rect ⟨31, h31⟩)).set
  rw [View.set_slice_whole, Rect.mem_set_unit]
  intro a
  have h0 : (i 0 : Nat) < 1024 := (i 0).isLt
  have h1 : (i 1 : Nat) < 64 := (i 1).isLt
  match a with
  | ⟨0, _⟩ =>
    show win0_4.index ⟨31, h31⟩ 0 * win0_4.size 0 ≤ (i 0 : Nat) ∧ (i 0 : Nat) < win0_4.index ⟨31, h31⟩ 0 * win0_4.size 0 + win0_4.xsize (grid0.coords ⟨31, h31⟩) 0
    rw [hi.1, (out_extent ⟨31, h31⟩).1]; omega
  | ⟨1, _⟩ =>
    show win0_4.index ⟨31, h31⟩ 1 * win0_4.size 1 ≤ (i 1 : Nat) ∧ (i 1 : Nat) < win0_4.index ⟨31, h31⟩ 1 * win0_4.size 1 + win0_4.xsize (grid0.coords ⟨31, h31⟩) 1
    rw [hi.2, (out_extent ⟨31, h31⟩).2]; omega

/-- THE KERNEL'S RUN, READ: on real arguments every weakly fair execution terminates with the result array at the
    read-out of the arguments' real parts, and the arguments unchanged. -/
theorem run (h : ∀ c : Dev nD, ArgsReal m c) :
    θ_run defs (onTc (τ := τ) (main (F := Ideal))) ⟨m, fun _ => 0, ρ⟩ fun r => ∀ c : Dev nD,
      r.2.mem ((c : Thread nD τ).loc main_v1) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => ⟨(hr c).1.trans (final m c (h c)), (hr c).2⟩) (Value.run_blocks m ρ)

end Cert.KernelIdeal.Attn

end
-- ==== Proof.RefReal.lean ====
/-
  The reference on real data: softmax of the scaled scores over all 65536 memory rows, applied to the memory, is the
  read-out `Spec.out` of the arguments' real parts.
-/
import proofs.«153952_g34059090657292_cont_8to1_b_1253_2_alg».proof.Proof.Gen.ReferenceIdeal.Read
import proofs.«153952_g34059090657292_cont_8to1_b_1253_2_alg».proof.Proof.Spec
import proofs.«153952_g34059090657292_cont_8to1_b_1253_2_alg».proof.Proof.Softmax
import Idealize.ShloMosaic.PureOps.Ideal.Laws
import Idealize.ShloMosaic.Lib.ValueIdx
import Idealize.ShloMosaic.Lib.Pipeline.Value

noncomputable section

namespace Cert.ReferenceIdeal.RefReal

open Finset Idealize.ShloMosaic Idealize.ShloMosaic.ValueIdx Cert.ReferenceIdeal Cert.ReferenceIdeal.Gen Cert.ReferenceIdeal.Read Cert.Spec

/-- The embedding of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real part of a lifted matrix is the matrix. -/
theorem re2_up2 {n0 n1 : ℕ} (f : Fin n0 → Fin n1 → ℝ) : re2 (up2 f) = f := by
  funext a b; exact EReal.toReal_coe _

/-- The real part of a lifted vector is the vector. -/
theorem re1_up1 {n : ℕ} (f : Fin n → ℝ) : re1 (up1 f) = f := by
  funext a; exact EReal.toReal_coe _

section Stages

variable (q : Fin 1024 → Fin 64 → ℝ) (bf : Fin 65536 → Fin 64 → ℝ) (W : Fin 64 → Fin 64 → ℝ) (bias : Fin 64 → ℝ)

/-- The projected query at an index is the real `proj`. -/
theorem v4_at (b : Fin 1024) (e : Fin 64) :
    val_main_v4 (F := Ideal) (up2 q) (up2 W) (up1 bias) (ix2 b e) = ((proj q W bias b e : ℝ) : EReal) := by
  rw [val_main_v4_apply, val_main_v1_apply, val_main_v3_apply, val_main_v2_apply]
  simp only [val_main_v0_apply]
  show (∑ k : Fin 64, ((q b k : ℝ) : EReal) * ((W e k : ℝ) : EReal)) + ((bias e : ℝ) : EReal) = _
  rw [proj, EReal.coe_add, coe_sum]
  simp only [EReal.coe_mul]

theorem v4_idx (i : S1024x64.Idx) :
    val_main_v4 (F := Ideal) (up2 q) (up2 W) (up1 bias) i = ((proj q W bias (i 0) (i 1) : ℝ) : EReal) := by
  obtain ⟨b, e, rfl⟩ : ∃ (b : Fin 1024) (e : Fin 64), i = ix2 b e := ⟨i 0, i 1, eq_ix2 i⟩
  exact v4_at q W bias b e

/-- The unscaled score at an index: the inner product of the projected query row and the memory row. -/
theorem v6_at (b : Fin 1024) (j : Fin 65536) :
    val_main_v6 (F := Ideal) (up2 q) (up2 bf) (up2 W) (up1 bias) (ix2 b j)
      = ((∑ e : Fin 64, proj q W bias b e * bf j e : ℝ) : EReal) := by
  rw [val_main_v6_apply]
  simp only [val_main_v5_apply, v4_idx]
  rw [coe_sum]
  simp only [EReal.coe_mul]
  rfl

/-- The scaled score at an index. -/
theorem v8_at (b : Fin 1024) (j : Fin 65536) :
    val_main_v8 (F := Ideal) (up2 q) (up2 bf) (up2 W) (up1 bias) (ix2 b j) = ((score q bf W bias b j : ℝ) : EReal) := by
  rw [val_main_v8_apply, val_main_v7_apply, val_main_cst_apply, v6_at]
  have h8 : Ideal.ofBits .f32 0x41000000#32 = ((8 : ℝ) : EReal) := by
    simp [Ideal.ofBits, Ideal.ieee, -EReal.coe_mul]; norm_num
  show Ideal.div _ (Ideal.ofBits .f32 0x41000000#32) = _
  rw [h8, Ideal.div_coe (by norm_num), ← EReal.coe_mul]
  rfl

theorem v8_idx (i : S1024x65536.Idx) :
    val_main_v8 (F := Ideal) (up2 q) (up2 bf) (up2 W) (up1 bias) i = ((score q bf W bias (i 0) (i 1) : ℝ) : EReal) := by
  obtain ⟨b, j, rfl⟩ : ∃ (b : Fin 1024) (j : Fin 65536), i = ix2 b j := ⟨i 0, i 1, eq_ix2 i⟩
  exact v8_at q bf W bias b j

/-- The row maximum the reference subtracts is a real number: a maximum, started at `-∞`, over a nonempty row of
    real scores. Which real it is does not matter to a softmax. -/
theorem v11_real (i : S1024.Idx) :
    ∃ M : ℝ, val_main_v11 (F := Ideal) (up2 q) (up2 bf) (up2 W) (up1 bias) i = (M : EReal) := by
  have hbot : Ideal.ofBits .f32 0xFF800000#32 = (⊥ : EReal) := by simp [Ideal.ofBits, Ideal.ieee]
  have hred : S1024x65536.Reduces [1] S1024 := by decide
  rw [val_main_v11_apply, val_main_v10_apply, val_main_cst_1_apply]
  unfold val_main_v9
  rw [Host.reduce_eq_fold_single FloatOps.maximumf _ _ reducesTo_S1024x65536_S1024_d1 hred h_S_, val_main_cst_0_apply]
  show ∃ M : ℝ, max (Ideal.ofBits .f32 0xFF800000#32)
      (Finset.univ.fold max (Ideal.ofBits .f32 0xFF800000#32)
        (val_main_v8 (F := Ideal) (up2 q) (up2 bf) (up2 W) (up1 bias) ∘ hred.lift i)) = (M : EReal)
  rw [hbot]
  refine ⟨_, (EReal.coe_toReal (ne_of_lt ?_) (ne_of_gt ?_)).symm⟩
  · rw [max_lt_iff, Finset.fold_max_lt]
    refine ⟨bot_lt_top, bot_lt_top, fun k _ => ?_⟩
    rw [Function.comp_apply, v8_idx]
    exact EReal.coe_lt_top _
  · rw [lt_max_iff, Finset.lt_fold_max]
    refine Or.inr (Or.inr ⟨⟨0, by decide⟩, Finset.mem_univ _, ?_⟩)
    rw [Function.comp_apply, v8_idx]
    exact EReal.bot_lt_coe _

/-- The shift of row `b`: the real number the reference subtracts from that row's scores. -/
def shift (b : Fin 1024) : ℝ := (val_main_v11 (F := Ideal) (up2 q) (up2 bf) (up2 W) (up1 bias) (ix1 b)).toReal

theorem v11_idx (i : S1024.Idx) :
    val_main_v11 (F := Ideal) (up2 q) (up2 bf) (up2 W) (up1 bias) i = ((shift q bf W bias (i 0) : ℝ) : EReal) := by
  obtain ⟨b, rfl⟩ : ∃ b : Fin 1024, i = ix1 b := ⟨i 0, eq_ix1 i⟩
  obtain ⟨M, hM⟩ := v11_real q bf W bias (ix1 b)
  rw [shift]
  show _ = (((val_main_v11 (F := Ideal) (up2 q) (up2 bf) (up2 W) (up1 bias) (ix1 b)).toReal : ℝ) : EReal)
  rw [hM, EReal.toReal_coe]

/-- The exponential of the shifted score at an index. -/
theorem v15_at (b : Fin 1024) (j : Fin 65536) :
    val_main_v15 (F := Ideal) (up2 q) (up2 bf) (up2 W) (up1 bias) (ix2 b j)
      = ((Real.exp (score q bf W bias b j - shift q bf W bias b) : ℝ) : EReal) := by
  rw [val_main_v15_apply, val_main_v14_apply, val_main_v13_apply, val_main_v12_apply, v8_at, v11_idx]
  show Ideal.exp (((score q bf W bias b j : ℝ) : EReal) - ((shift q bf W bias b : ℝ) : EReal)) = _
  rw [← EReal.coe_sub]
  rfl

theorem v15_idx (i : S1024x65536.Idx) :
    val_main_v15 (F := Ideal) (up2 q) (up2 bf) (up2 W) (up1 bias) i
      = ((Real.exp (score q bf W bias (i 0) (i 1) - shift q bf W bias (i 0)) : ℝ) : EReal) := by
  obtain ⟨b, j, rfl⟩ : ∃ (b : Fin 1024) (j : Fin 65536), i = ix2 b j := ⟨i 0, i 1, eq_ix2 i⟩
  exact v15_at q bf W bias b j

/-- The row sum of the exponentials. -/
theorem v16_at (b : Fin 1024) :
    val_main_v16 (F := Ideal) (up2 q) (up2 bf) (up2 W) (up1 bias) (ix1 b)
      = ((∑ k : Fin 65536, Real.exp (score q bf W bias b k - shift q bf W bias b) : ℝ) : EReal) := by
  rw [val_main_v16_apply, val_main_cst_2_apply]
  simp only [v15_idx]
  show Ideal.ofBits .f32 0x00000000#32 + _ = _
  rw [Ideal.ofBits_zero_f32, zero_add, coe_sum]
  rfl

theorem v16_idx (i : S1024.Idx) :
    val_main_v16 (F := Ideal) (up2 q) (up2 bf) (up2 W) (up1 bias) i
      = ((∑ k : Fin 65536, Real.exp (score q bf W bias (i 0) k - shift q bf W bias (i 0)) : ℝ) : EReal) := by
  obtain ⟨b, rfl⟩ : ∃ b : Fin 1024, i = ix1 b := ⟨i 0, eq_ix1 i⟩
  exact v16_at q bf W bias b

/-- The row sum is positive, so dividing by it is the division of real numbers. -/
theorem rowsum_pos (b : Fin 1024) : 0 < ∑ k : Fin 65536, Real.exp (score q bf W bias b k - shift q bf W bias b) :=
  Finset.sum_pos (fun k _ => Real.exp_pos _) ⟨⟨0, by norm_num⟩, Finset.mem_univ _⟩

/-- The normalised exponential at an index. -/
theorem v19_at (b : Fin 1024) (j : Fin 65536) :
    val_main_v19 (F := Ideal) (up2 q) (up2 bf) (up2 W) (up1 bias) (ix2 b j)
      = ((Real.exp (score q bf W bias b j - shift q bf W bias b)
          / ∑ k : Fin 65536, Real.exp (score q bf W bias b k - shift q bf W bias b) : ℝ) : EReal) := by
  rw [val_main_v19_apply, val_main_v18_apply, val_main_v17_apply, v15_at, v16_idx]
  show Ideal.div _ ((∑ k : Fin 65536, Real.exp (score q bf W bias b k - shift q bf W bias b) : ℝ) : EReal) = _
  rw [Ideal.div_coe (ne_of_gt (rowsum_pos q bf W bias b)), ← EReal.coe_mul, one_div, div_eq_mul_inv]

theorem v19_idx (i : S1024x65536.Idx) :
    val_main_v19 (F := Ideal) (up2 q) (up2 bf) (up2 W) (up1 bias) i
      = ((Real.exp (score q bf W bias (i 0) (i 1) - shift q bf W bias (i 0))
          / ∑ k : Fin 65536, Real.exp (score q bf W bias (i 0) k - shift q bf W bias (i 0)) : ℝ) : EReal) := by
  obtain ⟨b, j, rfl⟩ : ∃ (b : Fin 1024) (j : Fin 65536), i = ix2 b j := ⟨i 0, i 1, eq_ix2 i⟩
  exact v19_at q bf W bias b j

/-- The result at an index is the read-out. -/
theorem v20_at (b : Fin 1024) (d : Fin 64) :
    val_main_v20 (F := Ideal) (up2 q) (up2 bf) (up2 W) (up1 bias) (ix2 b d) = ((out q bf W bias b d : ℝ) : EReal) := by
  rw [val_main_v20_apply, ← Cert.Softmax.normalised_quot q bf W bias b d (shift q bf W bias b), coe_sum]
  simp only [v19_idx, EReal.coe_mul]
  rfl

end Stages

/-- On arrays of real numbers the reference's result is the target. -/
theorem result_real (x0 : (⟨S1024x64, .f32⟩ : BufTy).Contents (Elt Ideal)) (x1 : (⟨S65536x64, .f32⟩ : BufTy).Contents (Elt Ideal))
    (x2 : (⟨S64x64, .f32⟩ : BufTy).Contents (Elt Ideal)) (x3 : (⟨S64, .f32⟩ : BufTy).Contents (Elt Ideal))
    (h0 : AllReal x0) (h1 : AllReal x1) (h2 : AllReal x2) (h3 : AllReal x3) :
    val_main_v20 (F := Ideal) x0 x1 x2 x3 = G x0 x1 x2 x3 := by
  obtain ⟨q, rfl⟩ : ∃ q : Fin 1024 → Fin 64 → ℝ, x0 = up2 q := ⟨re2 x0, (up2_re2 x0 h0).symm⟩
  obtain ⟨bf, rfl⟩ : ∃ bf : Fin 65536 → Fin 64 → ℝ, x1 = up2 bf := ⟨re2 x1, (up2_re2 x1 h1).symm⟩
  obtain ⟨W, rfl⟩ : ∃ W : Fin 64 → Fin 64 → ℝ, x2 = up2 W := ⟨re2 x2, (up2_re2 x2 h2).symm⟩
  obtain ⟨bias, rfl⟩ : ∃ bias : Fin 64 → ℝ, x3 = up1 bias := ⟨re1 x3, (up1_re1 x3 h3).symm⟩
  rw [G, re2_up2, re2_up2, re2_up2, re1_up1]
  funext i
  obtain ⟨b, d, rfl⟩ : ∃ (b : Fin 1024) (d : Fin 64), i = ix2 b d := ⟨i 0, i 1, eq_ix2 i⟩
  exact v20_at q bf W bias b d

end Cert.ReferenceIdeal.RefReal

end
-- ==== Proof.Finite.lean ====
/-
  The precondition, read: "the absolute value of every entry is below +inf" makes every entry of the four
  argument arrays a real number.
-/
import proofs.«153952_g34059090657292_cont_8to1_b_1253_2_alg».proof.Pre_finite_inputs
import proofs.«153952_g34059090657292_cont_8to1_b_1253_2_alg».proof.Proof.Gen.Pre_finite_inputs
import proofs.«153952_g34059090657292_cont_8to1_b_1253_2_alg».proof.Proof.Spec
import Idealize.ShloMosaic.PureOps.Ideal.Laws
import Idealize.ShloMosaic.Lib.ReduceAll
import Idealize.ShloMosaic.Lib.ValueIdx

noncomputable section

namespace Cert.Pre_finite_inputs.Finite

open Idealize.ShloMosaic Idealize.ShloMosaic.ValueIdx Cert.Pre_finite_inputs Cert.Spec

/-- The rank-0 shape has one index. -/
instance : Subsingleton S_.Idx := ⟨fun a b => funext fun d => d.elim0⟩

/-- An extended real whose absolute value `max x (-x)` lies strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test `|x i| < +∞`, as the program computes it, makes that entry a real number. -/
theorem real_of_test {s : Shape} (x : FVec Ideal s .f32) (hb : S_.BroadcastsInDim s (![] : Fin 0 → Fin s.rank))
    (i : s.Idx)
    (h : cmpf .olt (Host.absf x) (broadcastInDim s ![] hb (constant (F := Ideal) S_ .f32 0x7F800000#32)) i = 1#1) :
    ∃ r : ℝ, x i = (r : EReal) := by
  apply real_of_abs_lt_top
  have h' : BitVec.ofBool (decide (max (x i) (-(x i)) < Ideal.ofBits .f32 0x7F800000#32)) = 1#1 := h
  have ht : Ideal.ofBits .f32 0x7F800000#32 = (⊤ : EReal) := by simp [Ideal.ofBits, Ideal.ieee]
  rw [ht] at h'
  by_contra hn
  rw [decide_eq_false hn] at h'
  exact absurd h' (by decide)

/-- Under the precondition every entry of every argument array is a real number. -/
theorem allReal_of_pre (x0 : FVec Ideal S1024x64 .f32) (x1 : FVec Ideal S65536x64 .f32) (x2 : FVec Ideal S64x64 .f32)
    (x3 : FVec Ideal S64 .f32) (h : Cert.Pre_finite_inputs.fn (F := Ideal) x0 x1 x2 x3 = fun _ => 1#1) :
    AllReal x0 ∧ AllReal x1 ∧ AllReal x2 ∧ AllReal x3 := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_test x0 _ i (Host.reduce_andi_all _ _ _ _ ix0 h0' i),
    fun i => real_of_test x1 _ i (Host.reduce_andi_all _ _ _ _ ix0 h1 i),
    fun i => real_of_test x2 _ i (Host.reduce_andi_all _ _ _ _ ix0 h2 i),
    fun i => real_of_test x3 _ i (Host.reduce_andi_all _ _ _ _ ix0 h3 i)⟩

end Cert.Pre_finite_inputs.Finite

end
-- ==== Proof.lean ====
/-
  The certificate: the attention read-out kernel (an online softmax over 32 blocks of 2048 memory rows, carried in
  scratch buffers from grid point to grid point) against its reference (the softmax of all 65536 scores at once).

  Both compute, for query row `b` and feature `d`,
      `(∑ j, exp (s b j) * memory j d) / (∑ j, exp (s b j))`,   `s b j = ((query · Wᵀ + bias) b · memory j) / 8`.
  The reference subtracts the row maximum from the scores, normalises each exponential by the row's sum and then
  weighs the memory rows; the kernel keeps a running maximum, rescales its running denominator and weighted sum by
  `exp (old maximum - new maximum)` at every block, and divides once at the end. Over the reals the two agree
  because `exp (s - M) * exp (M - M') = exp (s - M')` (the rescaling is exact) and because the quotient does not
  depend on the subtracted number at all (numerator and denominator carry the same factor `exp (-M)`). The kernel's
  scale `0.125` is exactly one eighth, the reference's divisor `8`. The precondition (every input finite) is what
  makes all of this arithmetic of real numbers: distributing the rescaling over the sums, and the division, are not
  laws of the extended reals at the infinities.

  Modules: Spec (the formulas, and real data as arrays), Softmax (the algebra), Pieces (what each control case of the
  body leaves in each buffer, as the body's own arithmetic), StepReal (that arithmetic on real data), Kernel (the
  invariant after each grid point by induction, the one write-back, the run), RefReal (the reference on real data),
  Finite (the precondition read as "every entry is real"). The frames of the two kernels are the generated ones; the
  reference's frame is its generated run with the result dropped.
-/
import proofs.«153952_g34059090657292_cont_8to1_b_1253_2_alg».proof.Defs
import proofs.«153952_g34059090657292_cont_8to1_b_1253_2_alg».proof.Proof.Gen.Kernel
import proofs.«153952_g34059090657292_cont_8to1_b_1253_2_alg».proof.Proof.Gen.Kernel.Skeleton
import proofs.«153952_g34059090657292_cont_8to1_b_1253_2_alg».proof.Proof.Gen.Kernel.Launch
import proofs.«153952_g34059090657292_cont_8to1_b_1253_2_alg».proof.Proof.Gen.Kernel.Points
import proofs.«153952_g34059090657292_cont_8to1_b_1253_2_alg».proof.Proof.Gen.Kernel.Frame
import proofs.«153952_g34059090657292_cont_8to1_b_1253_2_alg».proof.Proof.Gen.KernelIdeal
import proofs.«153952_g34059090657292_cont_8to1_b_1253_2_alg».proof.Proof.Gen.KernelIdeal.Skeleton
import proofs.«153952_g34059090657292_cont_8to1_b_1253_2_alg».proof.Proof.Gen.KernelIdeal.Launch
import proofs.«153952_g34059090657292_cont_8to1_b_1253_2_alg».proof.Proof.Gen.KernelIdeal.Points
import proofs.«153952_g34059090657292_cont_8to1_b_1253_2_alg».proof.Proof.Gen.KernelIdeal.Frame
import proofs.«153952_g34059090657292_cont_8to1_b_1253_2_alg».proof.Proof.Gen.ReferenceIdeal
import proofs.«153952_g34059090657292_cont_8to1_b_1253_2_alg».proof.Proof.Gen.Pre_finite_inputs
import proofs.«153952_g34059090657292_cont_8to1_b_1253_2_alg».proof.Proof.Gen.KernelIdeal.Value
import proofs.«153952_g34059090657292_cont_8to1_b_1253_2_alg».proof.Proof.Gen.ReferenceIdeal.Run
import proofs.«153952_g34059090657292_cont_8to1_b_1253_2_alg».proof.Proof.Gen.ReferenceIdeal.Read
import proofs.«153952_g34059090657292_cont_8to1_b_1253_2_alg».proof.Proof.Kernel
import proofs.«153952_g34059090657292_cont_8to1_b_1253_2_alg».proof.Proof.RefReal
import proofs.«153952_g34059090657292_cont_8to1_b_1253_2_alg».proof.Proof.Finite
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments alone: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition the kernel's four arguments hold real numbers, on every device. -/
theorem argsReal (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Attn.ArgsReal m c :=
  Cert.Pre_finite_inputs.Finite.allReal_of_pre _ _ _ _ (hpre c)

/-- At the extended reals, from memories agreeing on the arguments, both programs end with the read-out of the
    arguments' real parts in their result arrays. -/
theorem algebraic : Cert.algebraic_KernelIdeal_ReferenceIdeal := by
  intro m ρ m' ρ' hpre hagree
  have hreal := fun c => argsReal m hpre c
  refine ⟨fun c => Cert.KernelIdeal.Attn.target m c, Cert.KernelIdeal.Attn.run m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v20_eq]
  exact Cert.ReferenceIdeal.RefReal.result_real _ _ _ _ (hreal c).1 (hreal c).2.1 (hreal c).2.2.1 (hreal c).2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
